-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x16384 : Shape := ⟨3, ![2, 512, 16384]⟩
abbrev S16384x768 : Shape := ⟨2, ![16384, 768]⟩
abbrev S768x16384 : Shape := ⟨2, ![768, 16384]⟩
abbrev S262144 : Shape := ⟨1, ![262144]⟩
abbrev S_ : Shape := ⟨0, ![]⟩

class Facts : Prop where
  bcast_S_S2x512x16384 : S_.BroadcastsInDim S2x512x16384 (![] : Fin 0 → Fin S2x512x16384.rank)
  reducesTo_S2x512x16384_S_d0_1_2 : S2x512x16384.ReducesTo [0, 1, 2] S_
  h_S_ : 0 < S_.numel
  bcast_S_S16384x768 : S_.BroadcastsInDim S16384x768 (![] : Fin 0 → Fin S16384x768.rank)
  reducesTo_S16384x768_S_d0_1 : S16384x768.ReducesTo [0, 1] S_
  bcast_S_S768x16384 : S_.BroadcastsInDim S768x16384 (![] : Fin 0 → Fin S768x16384.rank)
  reducesTo_S768x16384_S_d0_1 : S768x16384.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg4 : IVec S262144 32) (main_v13 : IVec S_ 1) (main_v15 : IVec S262144 1) (main_c_5 : IVec S_ 32) : IVec S_ 1 :=
  let main_v16 : IVec S262144 32 := broadcastInDim S262144 ![] bcast_S_S262144 main_c_5
  let main_v17 : IVec S262144 1 := cmpi .slt main_arg4 main_v16
  let main_v18 : IVec S262144 1 := andi main_v15 main_v17
  let main_c_6 : IVec S_ 1 := constantI S_ 1 1#1
  let main_v19 : IVec S_ 1 := (fun x v => Host.reduce IntOp.andi x v reducesTo_S262144_S_d0 h_S_) main_v18 main_c_6
  let main_v20 : IVec S_ 1 := andi main_v13 main_v19
  main_v20

def fn {F : FTy → Type} [FloatOps F] (main_arg0 : FVec F S2x512x16384 .f32) (main_arg1 : FVec F S16384x768 .f32) (main_arg2 : FVec F S768x16384 .f32) (main_arg3 : IVec S262144 32) (main_arg4 : IVec S262144 32) : IVec S_ 1 :=
  let main_v0 : FVec F S2x512x16384 .f32 := Host.absf main_arg0
  let main_cst : FVec F S_ .f32 := constant S_ .f32 0x7F800000#32
  let main_v1 : FVec F S2x512x16384 .f32 := broadcastInDim S2x512x16384 ![] bcast_S_S2x512x16384 main_cst
  let main_v2 : IVec S2x512x16384 1 := cmpf .olt main_v0 main_v1
  let main_c : IVec S_ 1 := constantI S_ 1 1#1
  let main_v3 : IVec S_ 1 := (fun x v => Host.reduce IntOp.andi x v reducesTo_S2x512x16384_S_d0_1_2 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S768x16384 .f32 := Host.absf main_arg2
  let main_cst_2 : FVec F S_ .f32 := constant S_ .f32 0x7F800000#32
  let main_v10 : FVec F S768x16384 .f32 := broadcastInDim S768x16384 ![] bcast_S_S768x16384 main_cst_2
  let main_v11 : IVec S768x16384 1 := cmpf .olt main_v9 main_v10
  let main_c_3 : IVec S_ 1 := constantI S_ 1 1#1
  let main_v12 : IVec S_ 1 := (fun x v => Host.reduce IntOp.andi x v reducesTo_S768x16384_S_d0_1 h_S_) main_v11 main_c_3
  let main_v13 : IVec S_ 1 := andi main_v8 main_v12
  let main_c_4 : IVec S_ 32 := constantI S_ 32 0#32
  let main_v14 : IVec S262144 32 := broadcastInDim S262144 ![] bcast_S_S262144 main_c_4
  let main_v15 : IVec S262144 1 := cmpi .sge main_arg4 main_v14
  let main_c_5 : IVec S_ 32 := constantI S_ 32 16384#32
  fn_part1 (F := F) main_arg4 main_v13 main_v15 main_c_5
-- ==== Kernel.lean ====
abbrev S2x512x16384 : Shape := ⟨3, ![2, 512, 16384]⟩
abbrev S16384x768 : Shape := ⟨2, ![16384, 768]⟩
abbrev S768x16384 : Shape := ⟨2, ![768, 16384]⟩
abbrev S262144 : Shape := ⟨1, ![262144]⟩
abbrev S_ : Shape := ⟨0, ![]⟩
abbrev S262144x1 : Shape := ⟨2, ![262144, 1]⟩
abbrev S262144x768 : Shape := ⟨2, ![262144, 768]⟩
abbrev S768x262144 : Shape := ⟨2, ![768, 262144]⟩
abbrev S16384x16384 : Shape := ⟨2, ![16384, 16384]⟩
abbrev S262144x2 : Shape := ⟨2, ![262144, 2]⟩
abbrev S1024x16384 : Shape := ⟨2, ![1024, 16384]⟩
abbrev S1024x1024 : Shape := ⟨2, ![1024, 1024]⟩
abbrev S1024x2048 : Shape := ⟨2, ![1024, 2048]⟩

abbrev nBuf : Space → Nat
  | .hbm => 52
  | .vmem => 7
  | .smem => 0
  | _ => 0

abbrev bufTy : (tb : Table) → Fin (tcTables nBuf tb) → BufTy
  | .hbm, ⟨0, _⟩ => ⟨S2x512x16384, .f32⟩
  | .hbm, ⟨1, _⟩ => ⟨S16384x768, .f32⟩
  | .hbm, ⟨2, _⟩ => ⟨S768x16384, .f32⟩
  | .hbm, ⟨3, _⟩ => ⟨S262144, .i32⟩
  | .hbm, ⟨4, _⟩ => ⟨S262144, .i32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144x768, .f32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S768x262144, .f32⟩
  | .hbm, ⟨23, _⟩ => ⟨S262144x768, .f32⟩
  | .hbm, ⟨24, _⟩ => ⟨S262144x768, .f32⟩
  | .hbm, ⟨25, _⟩ => ⟨S_, .f32⟩
  | .hbm, ⟨26, _⟩ => ⟨S262144, .f32⟩
  | .hbm, ⟨27, _⟩ => ⟨S_, .f32⟩
  | .hbm, ⟨28, _⟩ => ⟨S16384x16384, .f32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S262144x1, .i32⟩
  | .hbm, ⟨44, _⟩ => ⟨S262144x1, .i32⟩
  | .hbm, ⟨45, _⟩ => ⟨S262144x2, .i32⟩
  | .hbm, ⟨46, _⟩ => ⟨S16384x16384, .f32⟩
  | .hbm, ⟨47, _⟩ => ⟨S16384x16384, .bf16⟩
  | .hbm, ⟨48, _⟩ => ⟨S1024x16384, .f32⟩
  | .hbm, ⟨49, _⟩ => ⟨S1024x16384, .bf16⟩
  | .hbm, ⟨50, _⟩ => ⟨S1024x16384, .f32⟩
  | .hbm, ⟨51, _⟩ => ⟨S2x512x16384, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2x512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_c_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  transposes_S768x262144_S262144x768_1_0 : S768x262144.Transposes [1, 0] S262144x768
  reducesTo_S262144x768_S262144_d1 : S262144x768.ReducesTo [1] S262144
  h_S_ : 0 < S_.numel
  bcast_S_S16384x16384 : S_.BroadcastsInDim S16384x16384 (![] : Fin 0 → Fin S16384x16384.rank)
  concatenates_S262144x1_S262144x1_S262144x2_d1 : Shape.Concatenates [S262144x1, S262144x1] S262144x2 1
  bitsLt_bf16_f32 : FTy.bits .bf16 < FTy.bits .f32
  shapeCasts_S2x512x16384_S1024x16384 : S2x512x16384.ShapeCasts S1024x16384
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x16384_S2x512x16384 : S1024x16384.ShapeCasts S2x512x16384
  gather_S16384x768_S262144x1_S262144x768_1_0_n_n_0_1_1768_wf : GatherDims.WF S16384x768 S262144x1 S262144x768 [1] [0] [] [0] [] 1 ![1, 768]
  gather_S768x16384_S262144x1_S768x262144_0_1_n_n_1_1_7681_wf : GatherDims.WF S768x16384 S262144x1 S768x262144 [0] [1] [] [1] [] 1 ![768, 1]
  scatter_S16384x16384_S262144x2_S262144_n_01_01_1_wf : ScatterDims.WF S16384x16384 S262144x2 S262144 [] [0, 1] [0, 1] 1
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x16384.size a
  hwx0_0 : ∀ i : grid0.Coords, EltTy.bits .bf16 = 32 ∨ (Rect.block (s := S1024x16384) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x16384.size a
  hwx0_1 : ∀ i : grid0.Coords, EltTy.bits .bf16 = 32 ∨ (Rect.block (s := S16384x16384) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x16384.size a
  hwx0_2 : ∀ i : grid0.Coords, EltTy.bits .f32 = 32 ∨ (Rect.block (s := S1024x16384) S1024x2048.size (cc0_transform_2 i) (hinb0_2 i)).WholeWords (EltTy.packing .f32)

variable [Facts₀]

def gather_S16384x768_S262144x1_S262144x768_1_0_n_n_0_1_1768 : GatherDims S16384x768 S262144x1 S262144x768 where
  offsetDims := [1]
  collapsedSliceDims := [0]
  operandBatchingDims := []
  startIndicesBatchingDims := []
  startIndexMap := [0]
  indexVectorDim := 1
  sliceSizes := ![1, 768]
  wf := gather_S16384x768_S262144x1_S262144x768_1_0_n_n_0_1_1768_wf
def gather_S768x16384_S262144x1_S768x262144_0_1_n_n_1_1_7681 : GatherDims S768x16384 S262144x1 S768x262144 where
  offsetDims := [0]
  collapsedSliceDims := [1]
  operandBatchingDims := []
  startIndicesBatchingDims := []
  startIndexMap := [1]
  indexVectorDim := 1
  sliceSizes := ![768, 1]
  wf := gather_S768x16384_S262144x1_S768x262144_0_1_n_n_1_1_7681_wf
def scatter_S16384x16384_S262144x2_S262144_n_01_01_1 : ScatterDims S16384x16384 S262144x2 S262144 where
  updateWindowDims := []
  insertedWindowDims := [0, 1]
  scatterDimsToOperandDims := [0, 1]
  indexVectorDim := 1
  wf := scatter_S16384x16384_S262144x2_S262144_n_01_01_1_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v34) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x512x16384 : Shape := ⟨3, ![2, 512, 16384]⟩
abbrev S16384x768 : Shape := ⟨2, ![16384, 768]⟩
abbrev S768x16384 : Shape := ⟨2, ![768, 16384]⟩
abbrev S262144 : Shape := ⟨1, ![262144]⟩
abbrev S_ : Shape := ⟨0, ![]⟩
abbrev S262144x1 : Shape := ⟨2, ![262144, 1]⟩
abbrev S262144x768 : Shape := ⟨2, ![262144, 768]⟩
abbrev S768x262144 : Shape := ⟨2, ![768, 262144]⟩
abbrev S2x512x262144 : Shape := ⟨3, ![2, 512, 262144]⟩
abbrev S1x1x262144 : Shape := ⟨3, ![1, 1, 262144]⟩

abbrev nBuf : Space → Nat
  | .hbm => 50
  | .vmem => 0
  | .smem => 0
  | _ => 0

abbrev bufTy : (tb : Table) → Fin (tcTables nBuf tb) → BufTy
  | .hbm, ⟨0, _⟩ => ⟨S2x512x16384, .f32⟩
  | .hbm, ⟨1, _⟩ => ⟨S16384x768, .f32⟩
  | .hbm, ⟨2, _⟩ => ⟨S768x16384, .f32⟩
  | .hbm, ⟨3, _⟩ => ⟨S262144, .i32⟩
  | .hbm, ⟨4, _⟩ => ⟨S262144, .i32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144x768, .f32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S768x262144, .f32⟩
  | .hbm, ⟨23, _⟩ => ⟨S262144x768, .f32⟩
  | .hbm, ⟨24, _⟩ => ⟨S262144x768, .f32⟩
  | .hbm, ⟨25, _⟩ => ⟨S_, .f32⟩
  | .hbm, ⟨26, _⟩ => ⟨S262144, .f32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S2x512x262144, .f32⟩
  | .hbm, ⟨36, _⟩ => ⟨S1x1x262144, .f32⟩
  | .hbm, ⟨37, _⟩ => ⟨S2x512x262144, .f32⟩
  | .hbm, ⟨38, _⟩ => ⟨S2x512x262144, .f32⟩
  | .hbm, ⟨39, _⟩ => ⟨S_, .f32⟩
  | .hbm, ⟨40, _⟩ => ⟨S2x512x16384, .f32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S2x512x16384, .f32⟩
  | _, _ => ⟨S2x512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  transposes_S768x262144_S262144x768_1_0 : S768x262144.Transposes [1, 0] S262144x768
  reducesTo_S262144x768_S262144_d1 : S262144x768.ReducesTo [1] S262144
  h_S_ : 0 < S_.numel
  bcast_S262144_S1x1x262144_2 : S262144.BroadcastsInDim S1x1x262144 (![2] : Fin 1 → Fin S1x1x262144.rank)
  bcast_S1x1x262144_S2x512x262144_0_1_2 : S1x1x262144.BroadcastsInDim S2x512x262144 (![0, 1, 2] : Fin 3 → Fin S2x512x262144.rank)
  bcast_S_S2x512x16384 : S_.BroadcastsInDim S2x512x16384 (![] : Fin 0 → Fin S2x512x16384.rank)
  gather_S16384x768_S262144x1_S262144x768_1_0_n_n_0_1_1768_wf : GatherDims.WF S16384x768 S262144x1 S262144x768 [1] [0] [] [0] [] 1 ![1, 768]
  gather_S768x16384_S262144x1_S768x262144_0_1_n_n_1_1_7681_wf : GatherDims.WF S768x16384 S262144x1 S768x262144 [0] [1] [] [1] [] 1 ![768, 1]
  gather_S2x512x16384_S262144x1_S2x512x262144_01_2_n_n_2_1_25121_wf : GatherDims.WF S2x512x16384 S262144x1 S2x512x262144 [0, 1] [2] [] [2] [] 1 ![2, 512, 1]
  scatter_S2x512x16384_S262144x1_S2x512x262144_01_2_2_1_wf : ScatterDims.WF S2x512x16384 S262144x1 S2x512x262144 [0, 1] [2] [2] 1

variable [Facts₀]

def gather_S16384x768_S262144x1_S262144x768_1_0_n_n_0_1_1768 : GatherDims S16384x768 S262144x1 S262144x768 where
  offsetDims := [1]
  collapsedSliceDims := [0]
  operandBatchingDims := []
  startIndicesBatchingDims := []
  startIndexMap := [0]
  indexVectorDim := 1
  sliceSizes := ![1, 768]
  wf := gather_S16384x768_S262144x1_S262144x768_1_0_n_n_0_1_1768_wf
def gather_S768x16384_S262144x1_S768x262144_0_1_n_n_1_1_7681 : GatherDims S768x16384 S262144x1 S768x262144 where
  offsetDims := [0]
  collapsedSliceDims := [1]
  operandBatchingDims := []
  startIndicesBatchingDims := []
  startIndexMap := [1]
  indexVectorDim := 1
  sliceSizes := ![768, 1]
  wf := gather_S768x16384_S262144x1_S768x262144_0_1_n_n_1_1_7681_wf
def gather_S2x512x16384_S262144x1_S2x512x262144_01_2_n_n_2_1_25121 : GatherDims S2x512x16384 S262144x1 S2x512x262144 where
  offsetDims := [0, 1]
  collapsedSliceDims := [2]
  operandBatchingDims := []
  startIndicesBatchingDims := []
  startIndexMap := [2]
  indexVectorDim := 1
  sliceSizes := ![2, 512, 1]
  wf := gather_S2x512x16384_S262144x1_S2x512x262144_01_2_n_n_2_1_25121_wf
def scatter_S2x512x16384_S262144x1_S2x512x262144_01_2_2_1 : ScatterDims S2x512x16384 S262144x1 S2x512x262144 where
  updateWindowDims := [0, 1]
  insertedWindowDims := [2]
  scatterDimsToOperandDims := [2]
  indexVectorDim := 1
  wf := scatter_S2x512x16384_S262144x1_S2x512x262144_01_2_2_1_wf

class Facts : Prop extends Facts₀ where

variable [Facts]
-- ==== Proof.Spec.lean ====
/-
  The function both programs compute, written once over the five argument arrays.

  Connection m joins upstream feature j(m) to downstream feature i(m).  Its weight is the inner product of row i(m) of
  the encoder table with column j(m) of the decoder table (`values`).  The result at (b, s, q) is the sum, over the
  connections whose downstream feature is q, of the upstream activation X(b, s, j(m)) times the weight (`G`).
  The same number is the (b, s)-row of X times column q of the dense F × F matrix `W` whose entry (p, q) collects the
  weights of the connections from p to q; the kernel forms that product in 16 blocks of 1024 columns of X.

  Indices are 32-bit words.  A negative word is first wrapped by adding the table size (`wrap`).  A read clamps the
  wrapped word into the table (`clampF`); an accumulation into entry q happens exactly when the wrapped word, read as a
  signed integer, is q, so a word outside the table contributes nothing.
-/
import Idealize.ShloMosaic.Lib.ValueIdx
import Idealize.ShloMosaic.PureOps.Ideal

noncomputable section

open scoped BigOperators

namespace Cert.Spec

open Idealize.ShloMosaic Idealize.ShloMosaic.ValueIdx

/-- A negative index counts from the end of a table of 16384 entries. -/
def wrap (w : BitVec 32) : BitVec 32 :=
  Scalar.select (IntOp.cmpi .slt w 0#32) (IntOp.addi w 16384#32) w

/-- The entry a read at index word `w` takes: `w` as a signed integer, clamped into [0, 16383]. -/
def clampF (w : BitVec 32) : Fin 16384 := ⟨min w.toInt.toNat (16384 - 1), by omega⟩

/-- Row (b, s) of the activations laid out as a 1024-row matrix. -/
def row (b : Fin 2) (s : Fin 512) : Fin 1024 := ⟨512 * b.val + s.val, by omega⟩

/-- Column kk of the k-th block of 1024 columns. -/
def blk (k : Fin 16) (kk : Fin 1024) : Fin 16384 := ⟨1024 * k.val + kk.val, by omega⟩

/-- The weight of connection m: the inner product of the encoder row and the decoder column it names. -/
def values (enc : (⟨2, ![16384, 768]⟩ : Shape).Idx → EReal) (dec : (⟨2, ![768, 16384]⟩ : Shape).Idx → EReal)
    (i j : IVec ⟨1, ![262144]⟩ 32) (m : Fin 262144) : EReal :=
  ∑ d : Fin 768, enc (ix2 (clampF (wrap (i (ix1 m)))) d) * dec (ix2 d (clampF (wrap (j (ix1 m)))))

/-- The result: at (b, s, q) the sum over the connections into q of activation times weight. -/
def G (X : (⟨3, ![2, 512, 16384]⟩ : Shape).Idx → EReal) (enc : (⟨2, ![16384, 768]⟩ : Shape).Idx → EReal)
    (dec : (⟨2, ![768, 16384]⟩ : Shape).Idx → EReal) (i j : IVec ⟨1, ![262144]⟩ 32) :
    (⟨3, ![2, 512, 16384]⟩ : Shape).Idx → EReal := fun p =>
  ∑ m : Fin 262144, if (wrap (i (ix1 m))).toInt = ((p 2).val : Int)
    then X (ix3 (p 0) (p 1) (clampF (wrap (j (ix1 m))))) * values enc dec i j m else 0

/-- The dense connection matrix: entry (p, q) is the sum of the weights of the connections from p to q. -/
def W (enc : (⟨2, ![16384, 768]⟩ : Shape).Idx → EReal) (dec : (⟨2, ![768, 16384]⟩ : Shape).Idx → EReal)
    (i j : IVec ⟨1, ![262144]⟩ 32) : (⟨2, ![16384, 16384]⟩ : Shape).Idx → EReal := fun p =>
  ∑ m : Fin 262144, if (wrap (j (ix1 m))).toInt = ((p 0).val : Int) ∧ (wrap (i (ix1 m))).toInt = ((p 1).val : Int)
    then values enc dec i j m else 0

/-- The product of a 1024 × 16384 matrix with a 16384 × 16384 matrix, summed block by block: 16 blocks of 1024. -/
def blockedDot (A : (⟨2, ![1024, 16384]⟩ : Shape).Idx → EReal) (B : (⟨2, ![16384, 16384]⟩ : Shape).Idx → EReal)
    (r : Fin 1024) (q : Fin 16384) : EReal :=
  ∑ k : Fin 16, ∑ kk : Fin 1024, A (ix2 r (blk k kk)) * B (ix2 (blk k kk) q)

end Cert.Spec

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.KRegion.lean ====
/-
  What the launch leaves in its output array.
-/
import proofs.«422568_j49546742726742_1_alg».proof.Proof.Gen.KernelIdeal.Frame
import proofs.«422568_j49546742726742_1_alg».proof.Proof.Spec
import proofs.«422568_j49546742726742_1_alg».proof.Proof.LibPlainDot
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KRegion

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-- The zero block the first step of a column block stores. -/
abbrev zero : Vec F S1024x2048 .f32 := broadcast S1024x2048 (Scalar.ofBits .f32 0x00000000#32)

/-- One step's product: a 1024 × 1024 block of the left operand times a 1024 × 2048 block of the right one. -/
abbrev prod (a : Vec F S1024x1024 .bf16) (b : Vec F S1024x2048 .bf16) : FVec F S1024x2048 .f32 :=
  matmul dot_S1024x1024_S1024x2048_S1024x2048_1_0_0_1_n_n none a b (constant S1024x2048 .f32 0x00000000#32)

/-- A later step leaves, in the accumulator holding `xs`, `xs` plus the step's product. -/
theorem sout_B (c : Dev nD) (i : grid0.Coords) (a2 : Memref sig .tc .vmem S1024x1024 .bf16) (h2 : a2.IsWhole)
    (a3 : Memref sig .tc .vmem S1024x2048 .bf16) (h3 : a3.IsWhole) (a4 : Memref sig .tc .vmem S1024x2048 .f32) (h4 : a4.IsWhole)
    (a5 : Memref sig .tc .vmem S1024x2048 .f32) (h5 : a5.IsWhole) (hc0 : ¬cond0_0 i) (hc1 : ¬cond0_1 i)
    (x0 : Vec F S1024x1024 .bf16) (x1 : Vec F S1024x2048 .bf16) (xs : Vec F S1024x2048 .f32) :
    sout0_B_0 c i a2 h2 a3 h3 a4 h4 a5 h5 hc0 hc1 x0 x1 xs = addf xs (prod x0 x1) := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz]
  unfold k0_pay2
  simp only [View.readAt_eq_ld, h2.read_unread, h3.read_unread, h5.read_unread, View.ld_unit_zero (S := S1024x2048) hz,
    View.ld_unit_zero (S := S1024x1024) hz, shapeCast_self]

/-- The last step of a column block leaves the same in the accumulator, -/
theorem sout_C (c : Dev nD) (i : grid0.Coords) (a2 : Memref sig .tc .vmem S1024x1024 .bf16) (h2 : a2.IsWhole)
    (a3 : Memref sig .tc .vmem S1024x2048 .bf16) (h3 : a3.IsWhole) (a4 : Memref sig .tc .vmem S1024x2048 .f32) (h4 : a4.IsWhole)
    (a5 : Memref sig .tc .vmem S1024x2048 .f32) (h5 : a5.IsWhole) (hc0 : ¬cond0_0 i) (hc1 : cond0_1 i)
    (x0 : Vec F S1024x1024 .bf16) (x1 : Vec F S1024x2048 .bf16) (xs : Vec F S1024x2048 .f32) :
    sout0_C_0 c i a2 h2 a3 h3 a4 h4 a5 h5 hc0 hc1 x0 x1 xs = addf xs (prod x0 x1) := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  unfold k0_pay2
  simp only [View.readAt_eq_ld, h2.read_unread, h3.read_unread, h5.read_unread, View.ld_unit_zero (S := S1024x2048) hz,
    View.ld_unit_zero (S := S1024x1024) hz, shapeCast_self]

/-- and copies it into the output block. -/
theorem out_C (c : Dev nD) (i : grid0.Coords) (a2 : Memref sig .tc .vmem S1024x1024 .bf16) (h2 : a2.IsWhole)
    (a3 : Memref sig .tc .vmem S1024x2048 .bf16) (h3 : a3.IsWhole) (a4 : Memref sig .tc .vmem S1024x2048 .f32) (h4 : a4.IsWhole)
    (a5 : Memref sig .tc .vmem S1024x2048 .f32) (h5 : a5.IsWhole) (hc0 : ¬cond0_0 i) (hc1 : cond0_1 i)
    (x0 : Vec F S1024x1024 .bf16) (x1 : Vec F S1024x2048 .bf16) (xs : Vec F S1024x2048 .f32) :
    out0_C_2 c i a2 h2 a3 h3 a4 h4 a5 h5 hc0 hc1 x0 x1 xs = addf xs (prod x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S1024x2048) _ hz]
  unfold k0_pay2
  simp only [View.readAt_eq_ld, h2.read_unread, h3.read_unread, h5.read_unread, View.ld_unit_zero (S := S1024x2048) hz,
    View.ld_unit_zero (S := S1024x1024) hz, shapeCast_self]

/-- The first step of a column block stores the zero block, reads it back, and leaves zero plus the step's product. -/
theorem sout_A (c : Dev nD) (i : grid0.Coords) (a2 : Memref sig .tc .vmem S1024x1024 .bf16) (h2 : a2.IsWhole)
    (a3 : Memref sig .tc .vmem S1024x2048 .bf16) (h3 : a3.IsWhole) (a4 : Memref sig .tc .vmem S1024x2048 .f32) (h4 : a4.IsWhole)
    (a5 : Memref sig .tc .vmem S1024x2048 .f32) (h5 : a5.IsWhole) (hc0 : cond0_0 i) (hc1 : ¬cond0_1 i)
    (x0 : Vec F S1024x1024 .bf16) (x1 : Vec F S1024x2048 .bf16) :
    sout0_A_0 c i a2 h2 a3 h3 a4 h4 a5 h5 hc0 hc1 x0 x1 = addf zero (prod x0 x1) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x2048) hz, View.readCov_unit_zero (S := S1024x2048) _ hz]
  unfold k0_pay2 k0_pay1
  simp only [View.readAt_eq_ld, h2.read_unread, h3.read_unread, View.ld_unit_zero (S := S1024x2048) hz,
    View.ld_unit_zero (S := S1024x1024) hz, shapeCast_self]

/-! ## The blocks the launch reads, as entries of the two arrays -/

section Ideal

variable (m : (ℓ : Loc nD τ sig) → Buf (Elt Ideal) ℓ) (ρ : Dev nD → PrngReg)

/-- The left operand as the launch finds it: the activations, 1024 rows of 16384. -/
abbrev Aarr (c : Dev nD) : S1024x16384.Idx → EReal := V (F := Ideal) m c main_v34
/-- The right operand as the launch finds it: the dense connection matrix. -/
abbrev Warr (c : Dev nD) : S16384x16384.Idx → EReal := V (F := Ideal) m c main_v32
/-- The block of the left operand step t reads, -/
abbrev Ablk (c : Dev nD) (t : Fin cfg0.N) : Vec Ideal S1024x1024 .bf16 := iblk m c 0 t
/-- and the block of the right operand. -/
abbrev Wblk (c : Dev nD) (t : Fin cfg0.N) : Vec Ideal S1024x2048 .bf16 := iblk m c 1 t

/-- Step t = 16 n + k works on column block n of the output and contraction block k: where its three blocks lie. -/
theorem idx_facts : ∀ t : Fin cfg0.N,
    win0_0.index t (0 : Fin 2) = 0 ∧ win0_0.index t (1 : Fin 2) = t.val % 16
    ∧ win0_1.index t (0 : Fin 2) = t.val % 16 ∧ win0_1.index t (1 : Fin 2) = t.val / 16
    ∧ win0_2.index t (0 : Fin 2) = 0 ∧ win0_2.index t (1 : Fin 2) = t.val / 16 :=
  (by decide +kernel : ∀ t : Fin grid0.N,
    win0_0.index t (0 : Fin 2) = 0 ∧ win0_0.index t (1 : Fin 2) = t.val % 16
    ∧ win0_1.index t (0 : Fin 2) = t.val % 16 ∧ win0_1.index t (1 : Fin 2) = t.val / 16
    ∧ win0_2.index t (0 : Fin 2) = 0 ∧ win0_2.index t (1 : Fin 2) = t.val / 16)

/-- Entry (r, kk) of the left block of step t is entry (r, 1024 (t mod 16) + kk) of the left operand. -/
theorem Ablk_apply (c : Dev nD) (t : Fin cfg0.N) (r : Fin 1024) (kk : Fin 1024) (j : Fin 16384)
    (hj : j.val = 1024 * (t.val % 16) + kk.val) :
    Ablk m c t (ix2 r kk) = Aarr m c (ix2 r j) := by
  have hi := idx_facts t
  unfold Ablk iblk
  rw [View.read_apply]
  show V m c main_v34 _ = V m c main_v34 _
  congr 1
  funext a
  apply Fin.ext
  match a with
  | ⟨0, _⟩ => show win0_0.index t 0 * 1024 + 1 * r.val = r.val; rw [hi.1]; omega
  | ⟨1, _⟩ => show win0_0.index t 1 * 1024 + 1 * kk.val = j.val; rw [hi.2.1, hj]; omega

/-- Entry (kk, q') of the right block of step t is entry (1024 (t mod 16) + kk, 2048 (t div 16) + q') of the right
    operand. -/
theorem Wblk_apply (c : Dev nD) (t : Fin cfg0.N) (kk : Fin 1024) (q' : Fin 2048) (j q : Fin 16384)
    (hj : j.val = 1024 * (t.val % 16) + kk.val) (hq : q.val = 2048 * (t.val / 16) + q'.val) :
    Wblk m c t (ix2 kk q') = Warr m c (ix2 j q) := by
  have hi := idx_facts t
  unfold Wblk iblk
  rw [View.read_apply]
  show V m c main_v32 _ = V m c main_v32 _
  congr 1
  funext a
  apply Fin.ext
  match a with
  | ⟨0, _⟩ => show win0_1.index t 0 * 1024 + 1 * kk.val = j.val; rw [hi.2.2.1, hj]; omega
  | ⟨1, _⟩ => show win0_1.index t 1 * 2048 + 1 * q'.val = q.val; rw [hi.2.2.2.1, hq]; omega

/-! ## One step's product, entry by entry -/

/-- The left operand continued by zero past its last column, so that a column may be named by any number. -/
def A' (c : Dev nD) (r : Fin 1024) (j : ℕ) : EReal := if h : j < 16384 then Aarr m c (ix2 r ⟨j, h⟩) else 0
/-- The right operand continued by zero past its last row and column. -/
def W' (c : Dev nD) (j q : ℕ) : EReal :=
  if h : j < 16384 ∧ q < 16384 then Warr m c (ix2 ⟨j, h.1⟩ ⟨q, h.2⟩) else 0

/-- Contraction block k's share of entry (r, q) of the product: the sum over the block's 1024 columns. -/
def term (c : Dev nD) (r : Fin 1024) (q k : ℕ) : EReal :=
  ∑ kk : Fin 1024, A' m c r (1024 * k + kk.val) * W' m c (1024 * k + kk.val) q

theorem dot_eq_plain : dot_S1024x1024_S1024x2048_S1024x2048_1_0_0_1_n_n = DotDims.plain 1024 1024 2048 := rfl

/-- A step's product at an entry: the sum over the block's 1024 contraction columns. -/
theorem prod_entry (a : FVec Ideal ⟨2, ![1024, 1024]⟩ .bf16) (b : FVec Ideal ⟨2, ![1024, 2048]⟩ .bf16) (r : Fin 1024)
    (q' : Fin 2048) : prod (F := Ideal) a b (ix2 r q') = ∑ k : Fin 1024, a (ix2 r k) * b (ix2 k q') :=
  PlainDot.matmul_zero_plain_apply (M := 1024) (K := 1024) (N := 2048) none a b (ix2 r q')

/-- Entry (r, q') of step t's product is contraction block (t mod 16)'s share of entry (r, 2048 (t div 16) + q'). -/
theorem prod_apply (c : Dev nD) (t : Fin cfg0.N) (r : Fin 1024) (q' : Fin 2048) :
    prod (Ablk m c t) (Wblk m c t) (ix2 r q') = term m c r (2048 * (t.val / 16) + q'.val) (t.val % 16) := by
  have hN : t.val < 128 := lt_of_lt_of_eq t.isLt (show cfg0.N = 128 from N_0)
  refine (prod_entry (Ablk m c t) (Wblk m c t) r q').trans ?_
  unfold term
  refine Finset.sum_congr rfl fun kk _ => ?_
  have hj : 1024 * (t.val % 16) + kk.val < 16384 := by have := kk.isLt; omega
  have hq : 2048 * (t.val / 16) + q'.val < 16384 := by have := q'.isLt; omega
  show Ablk m c t (ix2 r kk) * Wblk m c t (ix2 kk q') = _
  rw [Ablk_apply m c t r kk ⟨_, hj⟩ rfl, Wblk_apply m c t kk q' ⟨_, hj⟩ ⟨_, hq⟩ rfl rfl]
  unfold A' W'
  rw [dif_pos hj, dif_pos ⟨hj, hq⟩]

/-! ## The accumulator after each step -/

theorem acc_A (c : Dev nD) (t : Fin cfg0.N) (h0 : t.val % 16 = 0) (h1 : ¬t.val % 16 = 15) :
    (outsAt0 m c t.val t.isLt).2 = addf zero (prod (Ablk m c t) (Wblk m c t)) := by
  rw [outsAt0_A m c t h0 h1]
  dsimp only
  exact sout_A (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

theorem acc_B (c : Dev nD) (t : Fin cfg0.N) (h0 : ¬t.val % 16 = 0) (h1 : ¬t.val % 16 = 15) :
    (outsAt0 m c t.val t.isLt).2
      = addf (outsAt0 m c (t.val - 1) (Nat.lt_of_le_of_lt (Nat.sub_le _ _) t.isLt)).2 (prod (Ablk m c t) (Wblk m c t)) := by
  rw [outsAt0_B m c t h0 h1]
  dsimp only
  exact sout_B (F := Ideal) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

theorem acc_C (c : Dev nD) (t : Fin cfg0.N) (h0 : ¬t.val % 16 = 0) (h1 : t.val % 16 = 15) :
    (outsAt0 m c t.val t.isLt).2
      = addf (outsAt0 m c (t.val - 1) (Nat.lt_of_le_of_lt (Nat.sub_le _ _) t.isLt)).2 (prod (Ablk m c t) (Wblk m c t)) := by
  rw [outsAt0_C m c t h0 h1]
  dsimp only
  exact sout_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- At the last step of a column block the output block receives what the accumulator ends with. -/
theorem out_eq_acc (c : Dev nD) (t : Fin cfg0.N) (h0 : ¬t.val % 16 = 0) (h1 : t.val % 16 = 15) :
    (outsAt0 m c t.val t.isLt).1 = (outsAt0 m c t.val t.isLt).2 := by
  rw [outsAt0_C m c t h0 h1]
  dsimp only
  exact (out_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans
    (sout_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).symm

theorem zero_apply (y : S1024x2048.Idx) : (zero (F := Ideal)) y = (0 : EReal) := Ideal.ofBits_zero_f32

theorem add_entry (a b : FVec Ideal ⟨2, ![1024, 2048]⟩ .f32) (y : (⟨2, ![1024, 2048]⟩ : Shape).Idx) :
    addf a b y = (a y + b y : EReal) := rfl

/-- Zero plus a step's product, at an entry. -/
theorem first_entry (c : Dev nD) (t : Fin cfg0.N) (r : Fin 1024) (q' : Fin 2048) :
    addf zero (prod (Ablk m c t) (Wblk m c t)) (ix2 r q')
      = term m c r (2048 * (t.val / 16) + q'.val) (t.val % 16) :=
  (add_entry _ _ _).trans ((congrArg₂ (· + ·) (zero_apply _) (prod_apply m c t r q')).trans (zero_add _))

/-- An accumulator plus a step's product, at an entry. -/
theorem next_entry (c : Dev nD) (t : Fin cfg0.N) (xs : Vec Ideal S1024x2048 .f32) (r : Fin 1024) (q' : Fin 2048) :
    addf xs (prod (Ablk m c t) (Wblk m c t)) (ix2 r q')
      = (xs (ix2 r q') + term m c r (2048 * (t.val / 16) + q'.val) (t.val % 16) : EReal) :=
  (add_entry _ _ _).trans (congrArg (xs (ix2 r q') + ·) (prod_apply m c t r q'))

/-- After step n = 16 nb + k the accumulator holds, at (r, q'), the shares of contraction blocks 0 … k of entry
    (r, 2048 nb + q') of the product: by induction on the step, the first step of a column block starting afresh. -/
theorem acc_eq (c : Dev nD) : ∀ (n : ℕ) (h : n < cfg0.N) (r : Fin 1024) (q' : Fin 2048),
    (outsAt0 m c n h).2 (ix2 r q') = ∑ k ∈ Finset.range (n % 16 + 1), term m c r (2048 * (n / 16) + q'.val) k := by
  intro n
  induction n with
  | zero =>
    intro h r q'
    have e := congrFun (acc_A m c ⟨0, h⟩ (Nat.zero_mod _) (by show ¬(0 % 16 = 15); decide)) (ix2 r q')
    refine e.trans ((first_entry m c ⟨0, h⟩ r q').trans ?_)
    show term m c r (2048 * (0 / 16) + q'.val) (0 % 16) = _
    simp
  | succ n ih =>
    intro h r q'
    have hN : n + 1 < 128 := lt_of_lt_of_eq h (show cfg0.N = 128 from N_0)
    by_cases h0 : (n + 1) % 16 = 0
    · have h1 : ¬(n + 1) % 16 = 15 := by omega
      have e := congrFun (acc_A m c ⟨n + 1, h⟩ h0 h1) (ix2 r q')
      refine e.trans ((first_entry m c ⟨n + 1, h⟩ r q').trans ?_)
      show term m c r (2048 * ((n + 1) / 16) + q'.val) ((n + 1) % 16) = _
      rw [h0]
      simp
    · have e : (outsAt0 m c (n + 1) h).2
          = addf (outsAt0 m c n (Nat.lt_of_succ_lt h)).2 (prod (Ablk m c ⟨n + 1, h⟩) (Wblk m c ⟨n + 1, h⟩)) := by
        by_cases h1 : (n + 1) % 16 = 15
        · exact acc_C m c ⟨n + 1, h⟩ h0 h1
        · exact acc_B m c ⟨n + 1, h⟩ h0 h1
      refine (congrFun e (ix2 r q')).trans ((next_entry m c ⟨n + 1, h⟩ _ r q').trans ?_)
      rw [ih (Nat.lt_of_succ_lt h) r q']
      show _ + term m c r (2048 * ((n + 1) / 16) + q'.val) ((n + 1) % 16) = _
      have e1 : (n + 1) % 16 = n % 16 + 1 := by omega
      have e2 : (n + 1) / 16 = n / 16 := by omega
      rw [e1, e2, Finset.sum_range_succ _ (n % 16 + 1)]

/-- The sixteen shares together are the blocked product. -/
theorem sum_terms (c : Dev nD) (r : Fin 1024) (q : Fin 16384) :
    ∑ k ∈ Finset.range 16, term m c r q.val k = Cert.Spec.blockedDot (Aarr m c) (Warr m c) r q := by
  rw [Finset.sum_range]
  unfold Cert.Spec.blockedDot term
  refine Finset.sum_congr rfl fun k _ => Finset.sum_congr rfl fun kk _ => ?_
  have hj : 1024 * k.val + kk.val < 16384 := by have := k.isLt; have := kk.isLt; omega
  unfold A' W'
  rw [dif_pos hj, dif_pos ⟨hj, q.isLt⟩]
  rfl

/-! ## The output array after the launch -/

/-- The output array: the blocked product of the two operands. -/
def outG (c : Dev nD) : S1024x16384.Idx → EReal := fun p =>
  Cert.Spec.blockedDot (Aarr m c) (Warr m c) (p 0) (p 1)

/-- What the last step of column block nb writes back is that block of the product. -/
theorem flushed_eq (c : Dev nD) (t : Fin cfg0.N) (hf : (cfg0.win 2).flush t = true) :
    (dats m 0 c).flushed 2 t = ((cfg0.win 2).blk t).view.read (Elt Ideal) (outG m c) := by
  have h15 : t.val % 16 = 15 := (flush0_2 t).mp hf
  have h0 : ¬t.val % 16 = 0 := by omega
  have hN : t.val < 128 := lt_of_lt_of_eq t.isLt (show cfg0.N = 128 from N_0)
  have hi := idx_facts t
  show (cfg0.win 2).cut (grid0.coords t) ((dats m 0 c).after 2 t) = _
  rw [after0_2, out_eq_acc m c t h0 h15]
  have key : ∀ y : S1024x2048.Idx,
      (outsAt0 m c t.val t.isLt).2 y = outG m c (((cfg0.win 2).blk t).view.emb y) := by
    intro y
    obtain ⟨r, q', rfl⟩ : ∃ (r : Fin 1024) (q' : Fin 2048), y = ix2 r q' := ⟨y 0, y 1, eq_ix2 y⟩
    have hy0 : r.val < 1024 := r.isLt
    have hy1 : q'.val < 2048 := q'.isLt
    rw [acc_eq m c t.val t.isLt r q', h15]
    have hq : 2048 * (t.val / 16) + q'.val < 16384 := by omega
    rw [show 2048 * (t.val / 16) + q'.val = (⟨2048 * (t.val / 16) + q'.val, hq⟩ : Fin 16384).val from rfl,
      sum_terms m c r ⟨_, hq⟩]
    unfold outG
    congr 1
    · apply Fin.ext
      show r.val = win0_2.index t 0 * 1024 + 1 * r.val
      rw [hi.2.2.2.2.1]; omega
    · apply Fin.ext
      show 2048 * (t.val / 16) + q'.val = win0_2.index t 1 * 2048 + 1 * q'.val
      rw [hi.2.2.2.2.2]; omega
  funext y
  exact key y

/-- Every entry of the output array lies in the block some column block's last step writes back. -/
theorem cover (i : S1024x16384.Idx) :
    ∃ t : Fin cfg0.N, (cfg0.win 2).flush t = true ∧ i ∈ ((cfg0.win 2).blk t).view.set := by
  have h0 : (i 0).val < 1024 := (i 0).isLt
  have h1 : (i 1).val < 16384 := (i 1).isLt
  have hN : cfg0.N = 128 := N_0
  let t : Fin cfg0.N := ⟨16 * ((i 1).val / 2048) + 15, by rw [hN]; omega⟩
  have ht : t.val = 16 * ((i 1).val / 2048) + 15 := rfl
  have hi := idx_facts t
  refine ⟨t, (flush0_2 t).mpr (by rw [ht]; omega), ?_⟩
  show i ∈ ((View.whole main_v35).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [hi.2.2.2.2.1]; omega
  | ⟨1, _⟩ =>
    show win0_2.index t 1 * 2048 ≤ (i 1).val ∧ (i 1).val < win0_2.index t 1 * 2048 + 2048
    rw [hi.2.2.2.2.2, ht]; omega

/-- The output array ends holding the blocked product. -/
theorem final35 (c : Dev nD) : (dats m 0 c).arrAt 2 cfg0.N = outG m c :=
  (dats m 0 c).arrAt_eq_of_cover 2 (outG m c) (flushed_eq m c) cover

/-! ## The program's result: the output array laid out as [2, 512, 16384] -/

/-- Entry (b, s, q) of the result is entry (512 b + s, q) of the blocked product. -/
theorem v36_eq (c : Dev nD) :
    Pipeline.afterTail₀ cfgs (dats m) 0 (V0 m) [hostOps1] c main_v36
      = fun p : S2x512x16384.Idx => Cert.Spec.blockedDot (Aarr m c) (Warr m c) (Cert.Spec.row (p 0) (p 1)) (p 2) := by
  unfold Pipeline.afterTail₀
  show StableHlo.after hostOps1 _ (Proc.devRef .tc main_v36) = _
  after_results
  have hw : Pipeline.withArrays (cfgs 0).spec c (V0 m c) (fun w => (dats m 0 c).arrAt w (cfgs 0).N)
      (Proc.devRef .tc main_v35) = outG m c :=
    (Pipeline.withArrays_arr spec0 launch0.win.arr_inj c _ _ 2).trans (final35 m c)
  funext p
  obtain ⟨b, s, q, rfl⟩ : ∃ (b : Fin 2) (s : Fin 512) (q : Fin 16384), p = ix3 b s q := ⟨p 0, p 1, p 2, eq_ix3 p⟩
  show shapeCast S2x512x16384 (Pipeline.withArrays (cfgs 0).spec c (V0 m c) (fun w => (dats m 0 c).arrAt w (cfgs 0).N)
      (Proc.devRef .tc main_v35)) shapeCasts_S1024x16384_S2x512x16384 (ix3 b s q) = _
  rw [hw]
  refine (shapeCast_apply (outG m c) shapeCasts_S1024x16384_S2x512x16384 (ix3 b s q) (ix2 (Cert.Spec.row b s) q) ?_).trans rfl
  rw [Shape.rowMajor_val_two, Shape.rowMajor_val_three]
  show (Cert.Spec.row b s).val * 16384 + q.val = (b.val * 512 + s.val) * 16384 + q.val
  unfold Cert.Spec.row
  have := b.isLt
  have := s.isLt
  simp only
  omega

end Ideal

end Cert.KRegion

end
-- ==== Proof.LibScatterLand.lean ====
import Idealize.ShloMosaic.PureOps.Dims

/-!
  Where an update of a `stablehlo.scatter` lands.

  For any scatter dimension numbers, update index `j` lands on operand element `i` exactly when, on every
  operand axis, the start read off the scatter indices (signed, not clamped) plus the window coordinate
  equals `i`'s coordinate. An update whose start plus window coordinate leaves the operand on some axis
  lands on no element.
-/

namespace Idealize.ShloMosaic.ScatterLand

open Idealize.ShloMosaic

variable {s si u : Shape} (d : ScatterDims s si u)

/-- Update index `j` lands on operand element `i` if and only if, on every operand axis `a`, the start of
    the window plus the window coordinate is the coordinate of `i` on `a`. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hh =>
      have hi := congrFun (Option.some.inj h) a
      have hv := congrArg Fin.val hi
      have := hh a
      simp only at hv
      omega
    · cases h
  · intro h
    have hh : ∀ a, 0 ≤ d.start j idx a + d.window j a ∧ d.start j idx a + d.window j a < s.size a := by
      intro a
      have := h a
      have := (i a).isLt
      omega
    rw [dif_pos hh]
    refine congrArg some (funext fun a => Fin.ext ?_)
    have := h a
    show (d.start j idx a + d.window j a).toNat = (i a).val
    omega

/-- An update whose start plus window coordinate is outside the operand on some axis lands nowhere. -/
theorem resultIdx?_eq_none_of_outside {w : Nat} (j : u.Idx) (idx : IVec si w) (a : Fin s.rank)
    (h : d.start j idx a + (d.window j a : Int) < 0 ∨ (s.size a : Int) ≤ d.start j idx a + (d.window j a : Int)) :
    d.resultIdx? j idx = none := by
  unfold ScatterDims.resultIdx?
  rw [dif_neg]
  intro hh
  have := hh a
  omega

end Idealize.ShloMosaic.ScatterLand
-- ==== Proof.LibSumIdx.lean ====
/-
  A sum over the index set of an array of rank 1, 3 or 4 is the nested sum over its coordinates.

  The index set of a shape [n0, …, nk] is in bijection with the product of the coordinate ranges Fin n0 × … × Fin nk
  (an index is the tuple of its coordinates), so a sum over it in any commutative monoid is the iterated sum, one
  coordinate at a time, outermost axis first. The library states this for rank 2; these are the other ranks, in the same form.
-/
import Idealize.ShloMosaic.Lib.ValueIdx

open scoped BigOperators

namespace Idealize.ShloMosaic.ValueIdx

/-- A rank-1 index set is its coordinate range. -/
def idxEquiv1 {n0 : Nat} : (⟨1, ![n0]⟩ : Shape).Idx ≃ Fin n0 where
  toFun i := i 0
  invFun a := ix1 a
  left_inv i := (eq_ix1 i).symm
  right_inv _ := rfl

/-- A sum over a rank-1 index set is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Idealize.ShloMosaic.ValueIdx
-- ==== Proof.LibScatterAddRead.lean ====
/-
  An accumulating scatter read at one entry, for two layouts of the start indices.

  An update of a scatter lands on the entry its start index names: the index word is read as a signed integer and is
  not clamped, so an update whose index lies outside the operand lands nowhere.  An accumulating scatter read at one
  entry is therefore the entry's old value plus the sum, over all updates, of the update if it lands there and 0
  otherwise.  Two layouts: one start index per update naming a position on the LAST of three axes, the update being a
  whole [A × B] slab; and a PAIR of start indices per update naming one entry of a matrix.
-/
import Idealize.ShloMosaic.Lib.ValueIdx
import Idealize.ShloMosaic.PureOps.Ideal
import Idealize.ShloMosaic.PureOps.Ideal.Laws
import proofs.«422568_j49546742726742_1_alg».proof.Proof.LibScatterLand
import proofs.«422568_j49546742726742_1_alg».proof.Proof.LibSumIdx

noncomputable section

open scoped BigOperators

namespace Cert.LibScatterAddRead

open Idealize.ShloMosaic Idealize.ShloMosaic.ValueIdx

/-! ## Where the updates land -/

/-- Scatter of [A × B] slabs along the last of three axes: entry (a', b') of slab e lands on (a, b, k) exactly when the
    slab's start index, read signed, is k and the slab coordinates agree. -/
theorem scatter_last3_lands {A B N n w : Nat} (d : ScatterDims ⟨3, ![A, B, N]⟩ ⟨2, ![n, 1]⟩ ⟨3, ![A, B, n]⟩)
    (huw : d.updateWindowDims = [0, 1]) (hins : d.insertedWindowDims = [2])
    (hmap : d.scatterDimsToOperandDims = [2]) (hiv : d.indexVectorDim = 1)
    (idx : IVec ⟨2, ![n, 1]⟩ w) (a' : Fin A) (b' : Fin B) (e : Fin n) (a : Fin A) (b : Fin B) (k : Fin N) :
    d.resultIdx? (ix3 a' b' e) idx = some (ix3 a b k)
      ↔ (idx (ix2 e (0 : Fin 1))).toInt = (k.val : Int) ∧ a' = a ∧ b' = b := by
  obtain ⟨uw, ins, sdo, ivd, wf⟩ := d
  dsimp only at huw hins hmap hiv
  subst huw hins hmap hiv
  rw [ScatterLand.resultIdx?_eq_some_iff]
  -- the two slab axes: no start, the update's own coordinate; the last axis: the start index alone
  have hst0 : ScatterDims.start ⟨[0, 1], [2], [2], 1, wf⟩ (ix3 a' b' e) idx 0 = 0 := by
    unfold ScatterDims.start
    rw [dif_neg (by simp)]
  have hst1 : ScatterDims.start ⟨[0, 1], [2], [2], 1, wf⟩ (ix3 a' b' e) idx 1 = 0 := by
    unfold ScatterDims.start
    rw [dif_neg (by simp)]
  have hst2 : ScatterDims.start ⟨[0, 1], [2], [2], 1, wf⟩ (ix3 a' b' e) idx 2 = (idx (ix2 e (0 : Fin 1))).toInt := by
    unfold ScatterDims.start
    rw [dif_pos (by simp)]
    generalize hX : ScatterDims.siIdx _ (ix3 a' b' e) _ = X
    have hX' : X = ix2 e (0 : Fin 1) := by
      rw [← hX]
      funext c
      match c with
      | ⟨0, _⟩ => rfl
      | ⟨1, _⟩ => rfl
    rw [hX']
  have hwin0 : ScatterDims.window ⟨[0, 1], [2], [2], 1, wf⟩ (ix3 a' b' e) 0 = a'.val := by
    unfold ScatterDims.window
    rw [dif_pos (by simp [ScatterDims.sKept, Shape.kept])]
    rfl
  have hwin1 : ScatterDims.window ⟨[0, 1], [2], [2], 1, wf⟩ (ix3 a' b' e) 1 = b'.val := by
    unfold ScatterDims.window
    rw [dif_pos (by simp [ScatterDims.sKept, Shape.kept])]
    rfl
  have hwin2 : ScatterDims.window ⟨[0, 1], [2], [2], 1, wf⟩ (ix3 a' b' e) 2 = 0 := by
    unfold ScatterDims.window
    rw [dif_neg (by simp [ScatterDims.sKept, Shape.kept])]
  constructor
  · intro h
    have h0 := h 0
    have h1 := h 1
    have h2 := h 2
    rw [hst0, hwin0, zero_add] at h0
    rw [hst1, hwin1, zero_add] at h1
    rw [hst2, hwin2, Nat.cast_zero, add_zero] at h2
    exact ⟨h2, Fin.ext (Int.ofNat_inj.mp h0), Fin.ext (Int.ofNat_inj.mp h1)⟩
  · rintro ⟨h2, rfl, rfl⟩ c
    match c with
    | ⟨0, _⟩ =>
      show ScatterDims.start _ (ix3 a' b' e) idx 0 + ((ScatterDims.window _ (ix3 a' b' e) 0 : Nat) : Int) = _
      rw [hst0, hwin0, zero_add]
    | ⟨1, _⟩ =>
      show ScatterDims.start _ (ix3 a' b' e) idx 1 + ((ScatterDims.window _ (ix3 a' b' e) 1 : Nat) : Int) = _
      rw [hst1, hwin1, zero_add]
    | ⟨2, _⟩ =>
      show ScatterDims.start _ (ix3 a' b' e) idx 2 + ((ScatterDims.window _ (ix3 a' b' e) 2 : Nat) : Int) = _
      rw [hst2, hwin2, Nat.cast_zero, add_zero]
      exact h2

/-- Scatter of single values into a matrix by pairs of start indices: update e lands on (p, q) exactly when its pair of
    start indices, read signed, is (p, q). -/
theorem scatter_pair_lands {N0 N1 n w : Nat} (d : ScatterDims ⟨2, ![N0, N1]⟩ ⟨2, ![n, 2]⟩ ⟨1, ![n]⟩)
    (huw : d.updateWindowDims = []) (hins : d.insertedWindowDims = [0, 1])
    (hmap : d.scatterDimsToOperandDims = [0, 1]) (hiv : d.indexVectorDim = 1)
    (idx : IVec ⟨2, ![n, 2]⟩ w) (e : Fin n) (p : Fin N0) (q : Fin N1) :
    d.resultIdx? (ix1 e) idx = some (ix2 p q)
      ↔ (idx (ix2 e (0 : Fin 2))).toInt = (p.val : Int) ∧ (idx (ix2 e (1 : Fin 2))).toInt = (q.val : Int) := by
  obtain ⟨uw, ins, sdo, ivd, wf⟩ := d
  dsimp only at huw hins hmap hiv
  subst huw hins hmap hiv
  rw [ScatterLand.resultIdx?_eq_some_iff]
  -- each axis: its own component of the pair of start indices, and no window coordinate
  have hst0 : ScatterDims.start ⟨[], [0, 1], [0, 1], 1, wf⟩ (ix1 e) idx 0 = (idx (ix2 e (0 : Fin 2))).toInt := by
    unfold ScatterDims.start
    rw [dif_pos (by simp)]
    generalize hX : ScatterDims.siIdx _ (ix1 e) _ = X
    have hX' : X = ix2 e (0 : Fin 2) := by
      rw [← hX]
      funext c
      match c with
      | ⟨0, _⟩ => rfl
      | ⟨1, _⟩ => rfl
    rw [hX']
  have hst1 : ScatterDims.start ⟨[], [0, 1], [0, 1], 1, wf⟩ (ix1 e) idx 1 = (idx (ix2 e (1 : Fin 2))).toInt := by
    unfold ScatterDims.start
    rw [dif_pos (by simp)]
    generalize hX : ScatterDims.siIdx _ (ix1 e) _ = X
    have hX' : X = ix2 e (1 : Fin 2) := by
      rw [← hX]
      funext c
      match c with
      | ⟨0, _⟩ => rfl
      | ⟨1, _⟩ => rfl
    rw [hX']
  have hwin : ∀ c : Fin 2, ScatterDims.window ⟨[], [0, 1], [0, 1], 1, wf⟩ (ix1 e) c = 0 := by
    intro c
    unfold ScatterDims.window
    rw [dif_neg (by
      simp only [ScatterDims.sKept, Shape.kept, List.mem_filter, List.mem_finRange, true_and, decide_eq_true_eq, not_not]
      match c with
      | ⟨0, _⟩ => simp
      | ⟨1, _⟩ => simp)]
  constructor
  · intro h
    have h0 := h 0
    have h1 := h 1
    rw [hst0, hwin, Nat.cast_zero, add_zero] at h0
    rw [hst1, hwin, Nat.cast_zero, add_zero] at h1
    exact ⟨h0, h1⟩
  · rintro ⟨h0, h1⟩ c
    match c with
    | ⟨0, _⟩ =>
      show ScatterDims.start _ (ix1 e) idx 0 + ((ScatterDims.window _ (ix1 e) 0 : Nat) : Int) = _
      rw [hst0, hwin, Nat.cast_zero, add_zero]
      exact h0
    | ⟨1, _⟩ =>
      show ScatterDims.start _ (ix1 e) idx 1 + ((ScatterDims.window _ (ix1 e) 1 : Nat) : Int) = _
      rw [hst1, hwin, Nat.cast_zero, add_zero]
      exact h1

/-! ## An accumulating scatter read at one entry -/

/-- Accumulating scatter of [A × B] slabs along the last of three axes, at entry (a, b, k): the old entry plus entry
    (a, b) of the slabs whose start index, read signed, is k. -/
theorem scatterAdd_last3_apply {A B N n w : Nat} (d : ScatterDims ⟨3, ![A, B, N]⟩ ⟨2, ![n, 1]⟩ ⟨3, ![A, B, n]⟩)
    (huw : d.updateWindowDims = [0, 1]) (hins : d.insertedWindowDims = [2])
    (hmap : d.scatterDimsToOperandDims = [2]) (hiv : d.indexVectorDim = 1)
    (x : FVec Ideal ⟨3, ![A, B, N]⟩ .f32) (idx : IVec ⟨2, ![n, 1]⟩ w) (upd : FVec Ideal ⟨3, ![A, B, n]⟩ .f32)
    (a : Fin A) (b : Fin B) (k : Fin N) :
    Host.scatterAdd (F := Ideal) d x idx upd (ix3 a b k)
      = x (ix3 a b k)
        + ∑ e : Fin n, if (idx (ix2 e (0 : Fin 1))).toInt = (k.val : Int) then upd (ix3 a b e) else 0 := by
  show Ideal.hostScatterAdd d x idx upd (ix3 a b k) = _
  unfold Ideal.hostScatterAdd
  refine congrArg (x (ix3 a b k) + ·) ?_
  rw [Finset.sum_filter, sum_idx3]
  -- of the slab coordinates only (a, b) can land on (a, b, k)
  rw [Finset.sum_eq_single a]
  · rw [Finset.sum_eq_single b]
    · refine Finset.sum_congr rfl fun e _ => if_congr ?_ rfl rfl
      rw [scatter_last3_lands d huw hins hmap hiv]
      exact ⟨fun h => h.1, fun h => ⟨h, rfl, rfl⟩⟩
    · intro b' _ hb
      refine Finset.sum_eq_zero fun e _ => if_neg ?_
      rw [scatter_last3_lands d huw hins hmap hiv]
      exact fun h => hb h.2.2
    · intro h
      exact absurd (Finset.mem_univ _) h
  · intro a' _ ha
    refine Finset.sum_eq_zero fun b' _ => Finset.sum_eq_zero fun e _ => if_neg ?_
    rw [scatter_last3_lands d huw hins hmap hiv]
    exact fun h => ha h.2.1
  · intro h
    exact absurd (Finset.mem_univ _) h

/-- Accumulating scatter of single values into a matrix by pairs of start indices, at entry (p, q): the old entry plus
    the updates whose pair, read signed, is (p, q). -/
theorem scatterAdd_pair_apply {N0 N1 n w : Nat} (d : ScatterDims ⟨2, ![N0, N1]⟩ ⟨2, ![n, 2]⟩ ⟨1, ![n]⟩)
    (huw : d.updateWindowDims = []) (hins : d.insertedWindowDims = [0, 1])
    (hmap : d.scatterDimsToOperandDims = [0, 1]) (hiv : d.indexVectorDim = 1)
    (x : FVec Ideal ⟨2, ![N0, N1]⟩ .f32) (idx : IVec ⟨2, ![n, 2]⟩ w) (upd : FVec Ideal ⟨1, ![n]⟩ .f32)
    (p : Fin N0) (q : Fin N1) :
    Host.scatterAdd (F := Ideal) d x idx upd (ix2 p q)
      = x (ix2 p q)
        + ∑ e : Fin n, if (idx (ix2 e (0 : Fin 2))).toInt = (p.val : Int) ∧ (idx (ix2 e (1 : Fin 2))).toInt = (q.val : Int)
            then upd (ix1 e) else 0 := by
  show Ideal.hostScatterAdd d x idx upd (ix2 p q) = _
  unfold Ideal.hostScatterAdd
  refine congrArg (x (ix2 p q) + ·) ?_
  rw [Finset.sum_filter, sum_idx1]
  exact Finset.sum_congr rfl fun e _ => if_congr (scatter_pair_lands d huw hins hmap hiv idx e p q) rfl rfl

end Cert.LibScatterAddRead

end
-- ==== Proof.LibColGather.lean ====
/-
  Taking entries along the LAST axis of an array with the start index clamped: the gather that x[..., idx] of an
  [C × N] or an [A × B × N] array lowers to, read at an entry, for an ARBITRARY start index.

  With the last axis collapsed and start-indexed and every other axis an offset axis of full width, entry (c, v) of the
  result of the two-axis form is the operand's entry (c, col), and entry (y, x, v) of the result of the three-axis form
  is the operand's entry (y, x, col), where col is start index v read as a signed integer and clamped to [0, N − 1]:
  a negative start index reads column 0, one past the end reads the last column. When the start index read signed is
  a column k < N the clamp is the identity and the entry read is column k itself.
-/
import Idealize.ShloMosaic.Lib.ValueIdx

noncomputable section

namespace Cert.LibColGather

open Idealize.ShloMosaic Idealize.ShloMosaic.ValueIdx

/-- Entry (c, v) of a gather along the last of two axes is the operand's entry (c, col), col being start index v read
    signed and clamped into [0, N − 1]. -/
theorem gather_cols_clamp_apply {α : Type} {C N n w : Nat}
    (d : GatherDims ⟨2, ![C, N]⟩ ⟨2, ![n, 1]⟩ ⟨2, ![C, n]⟩)
    (hoff : d.offsetDims = [0]) (hcol : d.collapsedSliceDims = [1]) (hob : d.operandBatchingDims = [])
    (hsb : d.startIndicesBatchingDims = []) (hmap : d.startIndexMap = [1]) (hiv : d.indexVectorDim = 1)
    (hsl : d.sliceSizes = ![C, 1])
    (x : (⟨2, ![C, N]⟩ : Shape).Idx → α) (idx : IVec ⟨2, ![n, 1]⟩ w) (c : Fin C) (v : Fin n) (hN : 0 < N) :
    Host.gather d x idx (ix2 c v)
      = x (ix2 c (⟨min (idx (ix2 v (0 : Fin 1))).toInt.toNat (N - 1), by omega⟩ : Fin N)) := by
  -- the record's data are the seven printed lists: make them literal so that the axis bookkeeping computes
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the first axis: an offset axis of full width, no start, so the operand's coordinate is the result's
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl
  | ⟨1, _⟩ =>
    -- the last axis: collapsed and start-indexed, so the operand's column is the clamped start index alone
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    -- the start index is read at (v, 0): v from the result's batch axis, 0 on the index vector's axis
    generalize hX : GatherDims.siIdx _ (ix2 c v) _ = X
    have hX' : X = ix2 v (0 : Fin 1) := by
      rw [← hX]
      funext b
      match b with
      | ⟨0, _⟩ => rfl
      | ⟨1, _⟩ => rfl
    rw [hX']
    rfl

/-- Entry (y, x, v) of a gather along the last of three axes is the operand's entry (y, x, col), col being start
    index v read signed and clamped into [0, N − 1]. -/
theorem gather_cols3_clamp_apply {α : Type} {A B N n w : Nat}
    (d : GatherDims ⟨3, ![A, B, N]⟩ ⟨2, ![n, 1]⟩ ⟨3, ![A, B, n]⟩)
    (hoff : d.offsetDims = [0, 1]) (hcol : d.collapsedSliceDims = [2]) (hob : d.operandBatchingDims = [])
    (hsb : d.startIndicesBatchingDims = []) (hmap : d.startIndexMap = [2]) (hiv : d.indexVectorDim = 1)
    (hsl : d.sliceSizes = ![A, B, 1])
    (x : (⟨3, ![A, B, N]⟩ : Shape).Idx → α) (idx : IVec ⟨2, ![n, 1]⟩ w) (y : Fin A) (z : Fin B) (v : Fin n)
    (hN : 0 < N) :
    Host.gather d x idx (ix3 y z v)
      = x (ix3 y z (⟨min (idx (ix2 v (0 : Fin 1))).toInt.toNat (N - 1), by omega⟩ : Fin N)) := by
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the first axis: the first offset axis, of full width
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl
  | ⟨1, _⟩ =>
    -- the second axis: the second offset axis, of full width
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl
  | ⟨2, _⟩ =>
    -- the last axis: collapsed and start-indexed
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    generalize hX : GatherDims.siIdx _ (ix3 y z v) _ = X
    have hX' : X = ix2 v (0 : Fin 1) := by
      rw [← hX]
      funext b
      match b with
      | ⟨0, _⟩ => rfl
      | ⟨1, _⟩ => rfl
    rw [hX']
    rfl

/-- The clamp is the identity on a start index that, read signed, is a column k < N. -/
theorem clamp_eq_of_toInt {N w : Nat} (i : BitVec w) (k : Fin N) (hk : i.toInt = (k.val : Int)) :
    min i.toInt.toNat (N - 1) = k.val := by
  have := k.isLt
  rw [hk, Int.toNat_natCast]
  omega

/-- Two axes, start index in range: entry (c, v) is the operand's entry (c, k), k the start index read signed. -/
theorem gather_cols_apply_of_toInt {α : Type} {C N n w : Nat}
    (d : GatherDims ⟨2, ![C, N]⟩ ⟨2, ![n, 1]⟩ ⟨2, ![C, n]⟩)
    (hoff : d.offsetDims = [0]) (hcol : d.collapsedSliceDims = [1]) (hob : d.operandBatchingDims = [])
    (hsb : d.startIndicesBatchingDims = []) (hmap : d.startIndexMap = [1]) (hiv : d.indexVectorDim = 1)
    (hsl : d.sliceSizes = ![C, 1])
    (x : (⟨2, ![C, N]⟩ : Shape).Idx → α) (idx : IVec ⟨2, ![n, 1]⟩ w) (c : Fin C) (v : Fin n) (k : Fin N)
    (hk : (idx (ix2 v (0 : Fin 1))).toInt = (k.val : Int)) :
    Host.gather d x idx (ix2 c v) = x (ix2 c k) := by
  rw [gather_cols_clamp_apply d hoff hcol hob hsb hmap hiv hsl x idx c v (Nat.pos_of_ne_zero fun e => by
    have := k.isLt; omega)]
  exact congrArg (fun q => x (ix2 c q)) (Fin.ext (clamp_eq_of_toInt _ k hk))

/-- Three axes, start index in range: entry (y, x, v) is the operand's entry (y, x, k), k the start index read
    signed. -/
theorem gather_cols3_apply_of_toInt {α : Type} {A B N n w : Nat}
    (d : GatherDims ⟨3, ![A, B, N]⟩ ⟨2, ![n, 1]⟩ ⟨3, ![A, B, n]⟩)
    (hoff : d.offsetDims = [0, 1]) (hcol : d.collapsedSliceDims = [2]) (hob : d.operandBatchingDims = [])
    (hsb : d.startIndicesBatchingDims = []) (hmap : d.startIndexMap = [2]) (hiv : d.indexVectorDim = 1)
    (hsl : d.sliceSizes = ![A, B, 1])
    (x : (⟨3, ![A, B, N]⟩ : Shape).Idx → α) (idx : IVec ⟨2, ![n, 1]⟩ w) (y : Fin A) (z : Fin B) (v : Fin n)
    (k : Fin N) (hk : (idx (ix2 v (0 : Fin 1))).toInt = (k.val : Int)) :
    Host.gather d x idx (ix3 y z v) = x (ix3 y z k) := by
  rw [gather_cols3_clamp_apply d hoff hcol hob hsb hmap hiv hsl x idx y z v (Nat.pos_of_ne_zero fun e => by
    have := k.isLt; omega)]
  exact congrArg (fun q => x (ix3 y z q)) (Fin.ext (clamp_eq_of_toInt _ k hk))

end Cert.LibColGather

end
-- ==== Proof.LibRowGatherClamp.lean ====
/-
  Taking rows of a table with the start index clamped: the gather that x[idx] of an [N × C] array lowers to, read
  at an entry, for an ARBITRARY start index.

  With the row axis collapsed and start-indexed and the column axis an offset axis of full width, entry (r, q) of
  the result is the table's entry (row, q), where row is start index r read as a signed integer and clamped to
  [0, N − 1]: a negative start index reads row 0, one past the end reads the last row.
-/
import Idealize.ShloMosaic.Lib.ValueIdx

noncomputable section

namespace Cert.LibRowGatherClamp

open Idealize.ShloMosaic Idealize.ShloMosaic.ValueIdx

/-- Entry (r, q) of a row gather is the table's entry (row, q), row being start index r read signed and clamped
    into [0, N − 1]. -/
theorem gather_rows_clamp_apply {α : Type} {N C n w : Nat}
    (d : GatherDims ⟨2, ![N, C]⟩ ⟨2, ![n, 1]⟩ ⟨2, ![n, C]⟩)
    (hoff : d.offsetDims = [1]) (hcol : d.collapsedSliceDims = [0]) (hob : d.operandBatchingDims = [])
    (hsb : d.startIndicesBatchingDims = []) (hmap : d.startIndexMap = [0]) (hiv : d.indexVectorDim = 1)
    (hsl : d.sliceSizes = ![1, C])
    (x : (⟨2, ![N, C]⟩ : Shape).Idx → α) (idx : IVec ⟨2, ![n, 1]⟩ w) (r : Fin n) (q : Fin C) (hN : 0 < N) :
    Host.gather d x idx (ix2 r q)
      = x (ix2 (⟨min (idx (ix2 r (0 : Fin 1))).toInt.toNat (N - 1), by omega⟩ : Fin N) q) := by
  -- the record's data are the seven printed lists: make them literal so that the axis bookkeeping computes
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the row axis: collapsed and start-indexed, so the operand's row is the clamped start index alone
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    -- the start index is read at (r, 0): r from the result's batch axis, 0 on the index vector's axis
    generalize hX : GatherDims.siIdx _ (ix2 r q) _ = X
    have hX' : X = ix2 r (0 : Fin 1) := by
      rw [← hX]
      funext b
      match b with
      | ⟨0, _⟩ => rfl
      | ⟨1, _⟩ => rfl
    rw [hX']
    rfl
  | ⟨1, _⟩ =>
    -- the column axis: an offset axis of full width, no start, so the operand's column is the result's
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl

end Cert.LibRowGatherClamp

end
-- ==== Proof.RefValue.lean ====
/-
  The reference program computes the specification.

  The reference wraps each index word (a negative word counts from the end), reads row i(m) of the encoder table and
  column j(m) of the decoder table with the wrapped word clamped into the table, multiplies them entry by entry and sums
  over the 768 entries: that is the weight of connection m.  It then reads the activations at column j(m) (clamped the
  same way), multiplies by the weight, and accumulates the product into column i(m) of a zero array: an update whose
  wrapped index, read signed, is q lands on column q, every other lands elsewhere or nowhere.
-/
import proofs.«422568_j49546742726742_1_alg».proof.Proof.Gen.ReferenceIdeal.Read
import proofs.«422568_j49546742726742_1_alg».proof.Proof.Spec
import proofs.«422568_j49546742726742_1_alg».proof.Proof.LibScatterAddRead
import proofs.«422568_j49546742726742_1_alg».proof.Proof.LibColGather
import proofs.«422568_j49546742726742_1_alg».proof.Proof.LibRowGatherClamp

noncomputable section

open scoped BigOperators

namespace Cert.RefValue

open Idealize.ShloMosaic Idealize.ShloMosaic.ValueIdx Cert.ReferenceIdeal Cert.ReferenceIdeal.Read

/-! ## The four index wraps -/

/-- The wrapped downstream index the encoder read uses. -/
theorem wrap_v4 (i : (⟨S262144, .i32⟩ : BufTy).Contents (Elt Ideal)) (m : Fin 262144) :
    val_main_v4 (F := Ideal) i (ix1 m) = Cert.Spec.wrap (i (ix1 m)) := by
  rw [val_main_v4_apply, val_main_v1_apply, val_main_v3_apply, val_main_v0_apply, val_main_v2_apply,
    val_main_c_apply, val_main_c_0_apply]
  rfl

/-- The wrapped upstream index the decoder read uses. -/
theorem wrap_v11 (j : (⟨S262144, .i32⟩ : BufTy).Contents (Elt Ideal)) (m : Fin 262144) :
    val_main_v11 (F := Ideal) j (ix1 m) = Cert.Spec.wrap (j (ix1 m)) := by
  rw [val_main_v11_apply, val_main_v8_apply, val_main_v10_apply, val_main_v7_apply, val_main_v9_apply,
    val_main_c_1_apply, val_main_c_2_apply]
  rfl

/-- The wrapped upstream index the activation read uses. -/
theorem wrap_v21 (j : (⟨S262144, .i32⟩ : BufTy).Contents (Elt Ideal)) (m : Fin 262144) :
    val_main_v21 (F := Ideal) j (ix1 m) = Cert.Spec.wrap (j (ix1 m)) := by
  rw [val_main_v21_apply, val_main_v18_apply, val_main_v20_apply, val_main_v17_apply, val_main_v19_apply,
    val_main_c_3_apply, val_main_c_4_apply]
  rfl

/-- The wrapped downstream index the accumulation uses. -/
theorem wrap_v32 (i : (⟨S262144, .i32⟩ : BufTy).Contents (Elt Ideal)) (m : Fin 262144) :
    val_main_v32 (F := Ideal) i (ix1 m) = Cert.Spec.wrap (i (ix1 m)) := by
  rw [val_main_v32_apply, val_main_v29_apply, val_main_v31_apply, val_main_v28_apply, val_main_v30_apply,
    val_main_c_6_apply, val_main_c_7_apply]
  rfl

/-! ## The index columns -/

/-- Entry (m, 0) of a column made from a vector reads the vector at m. -/
theorem col_idx (m : Fin 262144) : idx_main_v5 (ix2 m (0 : Fin 1)) = ix1 m :=
  funext fun a => by match a with | ⟨0, _⟩ => rfl

theorem col_v5 (i : (⟨S262144, .i32⟩ : BufTy).Contents (Elt Ideal)) (m : Fin 262144) :
    val_main_v5 (F := Ideal) i (ix2 m (0 : Fin 1)) = Cert.Spec.wrap (i (ix1 m)) := by
  rw [val_main_v5_apply, col_idx, wrap_v4]

theorem col_v12 (j : (⟨S262144, .i32⟩ : BufTy).Contents (Elt Ideal)) (m : Fin 262144) :
    val_main_v12 (F := Ideal) j (ix2 m (0 : Fin 1)) = Cert.Spec.wrap (j (ix1 m)) := by
  rw [val_main_v12_apply]
  exact (congrArg _ (col_idx m)).trans (wrap_v11 j m)

theorem col_v22 (j : (⟨S262144, .i32⟩ : BufTy).Contents (Elt Ideal)) (m : Fin 262144) :
    val_main_v22 (F := Ideal) j (ix2 m (0 : Fin 1)) = Cert.Spec.wrap (j (ix1 m)) := by
  rw [val_main_v22_apply]
  exact (congrArg _ (col_idx m)).trans (wrap_v21 j m)

theorem col_v33 (i : (⟨S262144, .i32⟩ : BufTy).Contents (Elt Ideal)) (m : Fin 262144) :
    val_main_v33 (F := Ideal) i (ix2 m (0 : Fin 1)) = Cert.Spec.wrap (i (ix1 m)) := by
  rw [val_main_v33_apply]
  exact (congrArg _ (col_idx m)).trans (wrap_v32 i m)

/-! ## The three reads -/

/-- Entry (m, d) of the encoder rows read: row i(m), wrapped and clamped, at d. -/
theorem enc_rows (enc : (⟨S16384x768, .f32⟩ : BufTy).Contents (Elt Ideal))
    (i : (⟨S262144, .i32⟩ : BufTy).Contents (Elt Ideal)) (m : Fin 262144) (d : Fin 768) :
    val_main_v6 (F := Ideal) enc i (ix2 m d) = enc (ix2 (Cert.Spec.clampF (Cert.Spec.wrap (i (ix1 m)))) d) := by
  unfold val_main_v6
  rw [Cert.LibRowGatherClamp.gather_rows_clamp_apply gather_S16384x768_S262144x1_S262144x768_1_0_n_n_0_1_1768
    rfl rfl rfl rfl rfl rfl rfl enc (val_main_v5 (F := Ideal) i) m d (by decide)]
  refine congrArg (fun r => enc (ix2 r d)) (Fin.ext ?_)
  show min (val_main_v5 (F := Ideal) i (ix2 m (0 : Fin 1))).toInt.toNat (16384 - 1)
    = min (Cert.Spec.wrap (i (ix1 m))).toInt.toNat (16384 - 1)
  rw [col_v5]

/-- Entry (d, m) of the decoder columns read: column j(m), wrapped and clamped, at d. -/
theorem dec_cols (dec : (⟨S768x16384, .f32⟩ : BufTy).Contents (Elt Ideal))
    (j : (⟨S262144, .i32⟩ : BufTy).Contents (Elt Ideal)) (d : Fin 768) (m : Fin 262144) :
    val_main_v13 (F := Ideal) dec j (ix2 d m) = dec (ix2 d (Cert.Spec.clampF (Cert.Spec.wrap (j (ix1 m))))) := by
  unfold val_main_v13
  rw [Cert.LibColGather.gather_cols_clamp_apply gather_S768x16384_S262144x1_S768x262144_0_1_n_n_1_1_7681
    rfl rfl rfl rfl rfl rfl rfl dec (val_main_v12 (F := Ideal) j) d m (by decide)]
  refine congrArg (fun c => dec (ix2 d c)) (Fin.ext ?_)
  show min (val_main_v12 (F := Ideal) j (ix2 m (0 : Fin 1))).toInt.toNat (16384 - 1)
    = min (Cert.Spec.wrap (j (ix1 m))).toInt.toNat (16384 - 1)
  rw [col_v12]

/-- Entry (b, s, m) of the activations read: column j(m), wrapped and clamped, of row (b, s). -/
theorem act_cols (X : (⟨S2x512x16384, .f32⟩ : BufTy).Contents (Elt Ideal))
    (j : (⟨S262144, .i32⟩ : BufTy).Contents (Elt Ideal)) (b : Fin 2) (s : Fin 512) (m : Fin 262144) :
    val_main_v23 (F := Ideal) X j (ix3 b s m) = X (ix3 b s (Cert.Spec.clampF (Cert.Spec.wrap (j (ix1 m))))) := by
  unfold val_main_v23
  rw [Cert.LibColGather.gather_cols3_clamp_apply gather_S2x512x16384_S262144x1_S2x512x262144_01_2_n_n_2_1_25121
    rfl rfl rfl rfl rfl rfl rfl X (val_main_v22 (F := Ideal) j) b s m (by decide)]
  refine congrArg (fun c => X (ix3 b s c)) (Fin.ext ?_)
  show min (val_main_v22 (F := Ideal) j (ix2 m (0 : Fin 1))).toInt.toNat (16384 - 1)
    = min (Cert.Spec.wrap (j (ix1 m))).toInt.toNat (16384 - 1)
  rw [col_v22]

/-! ## The weights -/

/-- The reference's weight of connection m is the specification's. -/
theorem ref_values (enc : (⟨S16384x768, .f32⟩ : BufTy).Contents (Elt Ideal)) (dec : (⟨S768x16384, .f32⟩ : BufTy).Contents (Elt Ideal))
    (i j : (⟨S262144, .i32⟩ : BufTy).Contents (Elt Ideal)) (m : Fin 262144) :
    val_main_v16 (F := Ideal) enc dec i j (ix1 m) = Cert.Spec.values enc dec i j m := by
  rw [val_main_v16_apply, val_main_cst_apply]
  show Ideal.ofBits .f32 0x00000000#32 + _ = _
  rw [Ideal.ofBits_zero_f32, zero_add]
  unfold Cert.Spec.values
  refine Finset.sum_congr rfl fun d _ => ?_
  -- the summand at (m, d): the encoder entry times the transposed decoder entry
  have hmd : idx_main_v16 (ix1 m) d = ix2 m d :=
    funext fun a => by match a with | ⟨0, _⟩ => rfl | ⟨1, _⟩ => rfl
  have htr : idx_main_v14 (ix2 m d) = ix2 d m :=
    funext fun a => by match a with | ⟨0, _⟩ => rfl | ⟨1, _⟩ => rfl
  rw [hmd, val_main_v15_apply, val_main_v14_apply, htr, enc_rows, dec_cols]
  rfl

/-! ## The result -/

/-- The reference's result is the specification. -/
theorem ref_eq (X : (⟨S2x512x16384, .f32⟩ : BufTy).Contents (Elt Ideal)) (enc : (⟨S16384x768, .f32⟩ : BufTy).Contents (Elt Ideal))
    (dec : (⟨S768x16384, .f32⟩ : BufTy).Contents (Elt Ideal)) (i j : (⟨S262144, .i32⟩ : BufTy).Contents (Elt Ideal)) :
    val_main_v34 (F := Ideal) X enc dec i j = Cert.Spec.G X enc dec i j := by
  funext p
  obtain ⟨b, s, q, rfl⟩ : ∃ b s q, p = ix3 b s q := ⟨p 0, p 1, p 2, eq_ix3 p⟩
  unfold val_main_v34
  rw [Cert.LibScatterAddRead.scatterAdd_last3_apply scatter_S2x512x16384_S262144x1_S2x512x262144_01_2_2_1
    rfl rfl rfl rfl]
  -- the array accumulated into is zero
  rw [val_main_v27_apply, val_main_cst_5_apply]
  show Ideal.ofBits .f32 0x00000000#32 + _ = _
  rw [Ideal.ofBits_zero_f32, zero_add]
  unfold Cert.Spec.G
  refine Finset.sum_congr rfl fun m _ => ?_
  -- update m: lands on column q when its wrapped index is q; its value is activation times weight
  have hbc : idx_main_v24 (idx_main_v25 (ix3 b s m)) = ix1 m :=
    funext fun a => by match a with | ⟨0, _⟩ => rfl
  rw [col_v33, val_main_v26_apply, act_cols, val_main_v25_apply, val_main_v24_apply, hbc, ref_values]
  rfl

end Cert.RefValue

end
-- ==== Proof.KHost.lean ====
/-
  What the host operations before the kernel's launch leave in the two arrays the launch reads: the activations laid
  out as a 1024-row matrix, and the dense connection matrix.

  The left operand is the activations reshaped from [2, 512, 16384] to [1024, 16384] and narrowed; read exactly, the
  narrowing is the identity and the reshape keeps row-major positions, so row 512 b + s is row (b, s).

  The right operand is an accumulating scatter into a zero matrix: update m is the weight of connection m, and its
  pair of start indices is (wrap j(m), wrap i(m)), the two wrapped index vectors set side by side as the columns of a
  [262144, 2] matrix.  Read at entry (p, q) it is the sum of the weights of the connections whose pair, read signed,
  is (p, q): the specification's matrix.  The weight vector is computed by the same operations as the reference
  program's, so it is the specification's weight vector.
-/
import proofs.«422568_j49546742726742_1_alg».proof.Proof.Gen.KernelIdeal.Frame
import proofs.«422568_j49546742726742_1_alg».proof.Proof.Spec
import proofs.«422568_j49546742726742_1_alg».proof.Proof.LibScatterAddRead
import proofs.«422568_j49546742726742_1_alg».proof.Proof.LibColGather
import proofs.«422568_j49546742726742_1_alg».proof.Proof.LibRowGatherClamp
import proofs.«422568_j49546742726742_1_alg».proof.Proof.RefValue
import Idealize.ShloMosaic.Lib.StableHlo.Run
import Idealize.ShloMosaic.Lib.Pipeline.Value
import Idealize.ShloMosaic.Lib.IdealHost

noncomputable section

open scoped BigOperators

namespace Cert.KHost

open Idealize.ShloMosaic Idealize.ShloMosaic.TcCoe Idealize.SL.Sem Idealize.ShloMosaic.ValueIdx
open Cert.KernelIdeal Cert.KernelIdeal.Gen

/-! ## The operations' composed terms, at any float values -/

section Terms
variable {F : FTy → Type} [FloatOps F]

/-- A vector of index words, each negative word wrapped by adding the table size. -/
def wrapVec (x : (⟨S262144, .i32⟩ : BufTy).Contents (Elt F)) : (⟨S262144, .i32⟩ : BufTy).Contents (Elt F) :=
  select (cmpi .slt x (broadcastInDim S262144 ![] bcast_S_S262144 (constantI S_ 32 0#32)))
    (addi x (broadcastInDim S262144 ![] bcast_S_S262144 (constantI S_ 32 16384#32))) x

/-- The wrapped index vector as a one-column matrix. -/
def wrapCol (x : (⟨S262144, .i32⟩ : BufTy).Contents (Elt F)) : (⟨S262144x1, .i32⟩ : BufTy).Contents (Elt F) :=
  broadcastInDim S262144x1 ![0] bcast_S262144_S262144x1_0 (wrapVec (F := F) x)

/-- The weight vector: rows of the encoder table taken at the wrapped i, columns of the decoder table taken at the
    wrapped j and transposed, multiplied entry by entry and summed along the 768 features. -/
def hostValues (x1 : (⟨S16384x768, .f32⟩ : BufTy).Contents (Elt F)) (x2 : (⟨S768x16384, .f32⟩ : BufTy).Contents (Elt F))
    (x3 x4 : (⟨S262144, .i32⟩ : BufTy).Contents (Elt F)) : (⟨S262144, .f32⟩ : BufTy).Contents (Elt F) :=
  Host.reduceAdd
    (mulf (Host.gather gather_S16384x768_S262144x1_S262144x768_1_0_n_n_0_1_1768 x1 (wrapCol (F := F) x3))
      (transpose S262144x768 [1, 0] (Host.gather gather_S768x16384_S262144x1_S768x262144_0_1_n_n_1_1_7681 x2 (wrapCol (F := F) x4))
        transposes_S768x262144_S262144x768_1_0))
    (constant S_ .f32 0x00000000#32) reducesTo_S262144x768_S262144_d1 h_S_

/-- The connection matrix: the weights scattered into a zero matrix by the pairs (wrapped j, wrapped i), narrowed. -/
def hostW (x1 : (⟨S16384x768, .f32⟩ : BufTy).Contents (Elt F)) (x2 : (⟨S768x16384, .f32⟩ : BufTy).Contents (Elt F))
    (x3 x4 : (⟨S262144, .i32⟩ : BufTy).Contents (Elt F)) : (⟨S16384x16384, .bf16⟩ : BufTy).Contents (Elt F) :=
  truncf .bf16
    (Host.scatterAdd scatter_S16384x16384_S262144x2_S262144_n_01_01_1
      (broadcastInDim S16384x16384 ![] bcast_S_S16384x16384 (constant S_ .f32 0x00000000#32))
      (concatenate S262144x2 1 [⟨S262144x1, wrapCol (F := F) x4⟩, ⟨S262144x1, wrapCol (F := F) x3⟩]
        concatenates_S262144x1_S262144x1_S262144x2_d1)
      (hostValues (F := F) x1 x2 x3 x4))
    bitsLt_bf16_f32

/-- The launch's right operand is the operations' composed term of the four argument arrays it depends on. -/
theorem V_main_v32_eq (m : (ℓ : Loc nD τ sig) → Buf (Elt F) ℓ) (c : Dev nD) :
    V (F := F) m c main_v32
      = hostW (F := F) (m ((c : Thread nD τ).loc main_arg1)) (m ((c : Thread nD τ).loc main_arg2))
          (m ((c : Thread nD τ).loc main_arg3)) (m ((c : Thread nD τ).loc main_arg4)) := by
  show StableHlo.after hostOps0 (fun b => m (c, b)) (Proc.devRef .tc main_v32) = _
  after_results_simp
  rfl

/-- The launch's left operand is the activations reshaped and narrowed. -/
theorem V_main_v34_eq (m : (ℓ : Loc nD τ sig) → Buf (Elt F) ℓ) (c : Dev nD) :
    V (F := F) m c main_v34
      = truncf .bf16 (shapeCast S1024x16384 (m ((c : Thread nD τ).loc main_arg0)) shapeCasts_S2x512x16384_S1024x16384)
          bitsLt_bf16_f32 := by
  show StableHlo.after hostOps0 (fun b => m (c, b)) (Proc.devRef .tc main_v34) = _
  after_results
  rfl

/-- The weight vector is the reference program's: the same operations in the same order. -/
theorem hostValues_eq_ref (x1 : (⟨S16384x768, .f32⟩ : BufTy).Contents (Elt F)) (x2 : (⟨S768x16384, .f32⟩ : BufTy).Contents (Elt F))
    (x3 x4 : (⟨S262144, .i32⟩ : BufTy).Contents (Elt F)) :
    hostValues (F := F) x1 x2 x3 x4 = Cert.ReferenceIdeal.Read.val_main_v16 (F := F) x1 x2 x3 x4 := rfl

end Terms

/-! ## The terms read at an entry, exactly -/

/-- The wrapped vector at an entry is the wrapped word. -/
theorem wrapVec_apply (x : IVec S262144 32) (e : Fin 262144) :
    wrapVec (F := Ideal) x (ix1 e) = Cert.Spec.wrap (x (ix1 e)) := rfl

/-- The one-column matrix at (e, 0) is the wrapped word e. -/
theorem wrapCol_apply (x : IVec S262144 32) (e : Fin 262144) :
    wrapCol (F := Ideal) x (ix2 e (0 : Fin 1)) = Cert.Spec.wrap (x (ix1 e)) := by
  unfold wrapCol
  rw [broadcastInDim_apply _ bcast_S262144_S262144x1_0 _ _ (ix1 e) (fun a => match a with
    | ⟨0, _⟩ => by show e.val = if (262144 : Nat) = 1 then 0 else e.val; rw [if_neg (by decide)])]
  exact wrapVec_apply x e

/-- Two one-column matrices side by side: column 0 is the first. -/
theorem concat_col0 (a b : IVec S262144x1 32) (e : Fin 262144) :
    concatenate S262144x2 1 [⟨S262144x1, a⟩, ⟨S262144x1, b⟩] concatenates_S262144x1_S262144x1_S262144x2_d1 (ix2 e (0 : Fin 2))
      = a (ix2 e (0 : Fin 1)) := by
  refine concatenate_pair_apply_left (1 : Fin 2) a b _ (ix2 e (0 : Fin 2)) rfl (ix2 e (0 : Fin 1)) (fun d => ?_)
  match d with
  | ⟨0, _⟩ => rfl
  | ⟨1, _⟩ => rfl

/-- Two one-column matrices side by side: column 1 is the second. -/
theorem concat_col1 (a b : IVec S262144x1 32) (e : Fin 262144) :
    concatenate S262144x2 1 [⟨S262144x1, a⟩, ⟨S262144x1, b⟩] concatenates_S262144x1_S262144x1_S262144x2_d1 (ix2 e (1 : Fin 2))
      = b (ix2 e (0 : Fin 1)) := by
  refine concatenate_pair_apply_right (1 : Fin 2) a b _ (ix2 e (1 : Fin 2)) rfl rfl (ix2 e (0 : Fin 1)) (fun d hd => ?_) rfl
  match d, hd with
  | ⟨0, _⟩, _ => rfl
  | ⟨1, _⟩, hd => exact absurd rfl hd

/-- The scatter's operand is zero everywhere. -/
theorem zeros_apply (p : S16384x16384.Idx) :
    (broadcastInDim S16384x16384 ![] bcast_S_S16384x16384 (constant (F := Ideal) S_ .f32 0x00000000#32) : FVec Ideal S16384x16384 .f32) p = 0 := by
  rw [broadcastInDim_scalar_apply]
  exact Ideal.ofBits_zero_f32

/-- The reshape [2, 512, 16384] → [1024, 16384] at row 512 b + s: both indices have row-major position
    (512 b + s) · 16384 + jj. -/
theorem reshape_row (x : FVec Ideal S2x512x16384 .f32) (b : Fin 2) (s : Fin 512) (jj : Fin 16384) :
    (truncf (F := Ideal) .bf16 (shapeCast S1024x16384 x shapeCasts_S2x512x16384_S1024x16384) bitsLt_bf16_f32 : FVec Ideal S1024x16384 .bf16)
      (ix2 (Cert.Spec.row b s) jj) = x (ix3 b s jj) := by
  rw [truncf_apply]
  refine shapeCast_apply x _ _ (ix3 b s jj) ?_
  rw [Shape.rowMajor_val_three, Shape.rowMajor_val_two]
  show (b.val * 512 + s.val) * 16384 + jj.val = (512 * b.val + s.val) * 16384 + jj.val
  omega

/-- The composed connection matrix is the specification's: at (p, q) the scatter's sum runs over the same connections
    with the same weights. -/
theorem hostW_eq (x1 : FVec Ideal S16384x768 .f32) (x2 : FVec Ideal S768x16384 .f32) (x3 x4 : IVec S262144 32) :
    (hostW (F := Ideal) x1 x2 x3 x4 : S16384x16384.Idx → EReal) = Cert.Spec.W x1 x2 x3 x4 := by
  funext p
  obtain ⟨pp, q, rfl⟩ : ∃ pp q, p = ix2 pp q := ⟨p 0, p 1, eq_ix2 p⟩
  unfold hostW Cert.Spec.W
  rw [truncf_apply, Cert.LibScatterAddRead.scatterAdd_pair_apply _ rfl rfl rfl rfl, zeros_apply, zero_add]
  refine Finset.sum_congr rfl fun e _ => ?_
  rw [concat_col0, concat_col1, wrapCol_apply, wrapCol_apply, hostValues_eq_ref, Cert.RefValue.ref_values]

/-! ## The two arrays the launch reads -/

variable (m : (ℓ : Loc nD τ sig) → Buf (Elt Ideal) ℓ)

/-- Row 512 b + s of the matrix the launch reads as its left operand is row (b, s) of the activations. -/
theorem A_apply (c : Dev nD) (b : Fin 2) (s : Fin 512) (jj : Fin 16384) :
    (V (F := Ideal) m c main_v34 : S1024x16384.Idx → EReal) (ix2 (Cert.Spec.row b s) jj)
      = (m ((c : Thread nD τ).loc main_arg0) : S2x512x16384.Idx → EReal) (ix3 b s jj) := by
  rw [V_main_v34_eq m c]
  exact reshape_row _ b s jj

/-- The matrix the launch reads as its right operand is the dense connection matrix. -/
theorem W_eq (c : Dev nD) :
    (V (F := Ideal) m c main_v32 : S16384x16384.Idx → EReal)
      = Cert.Spec.W (m ((c : Thread nD τ).loc main_arg1)) (m ((c : Thread nD τ).loc main_arg2))
          (m ((c : Thread nD τ).loc main_arg3)) (m ((c : Thread nD τ).loc main_arg4)) := by
  rw [V_main_v32_eq m c]
  exact hostW_eq _ _ _ _

end Cert.KHost

end
-- ==== Proof.KMath.lean ====
/-
  The algebra joining the two programs: a row of activations times a column of the dense connection matrix is the sum
  over the connections into that column of activation times weight.
-/
import proofs.«422568_j49546742726742_1_alg».proof.Proof.Spec
import Idealize.ShloMosaic.Lib.Affine
import Mathlib.Data.EReal.Basic
import Mathlib.Algebra.BigOperators.Fin

noncomputable section

open scoped BigOperators

namespace Cert.KMath

open Idealize.ShloMosaic Idealize.ShloMosaic.ValueIdx Cert.Spec

/-! ## Index words -/

/-- A word that reads nonnegative as a signed integer is left alone by the wrap: the test "below zero" fails. -/
theorem wrap_of_nonneg (w : BitVec 32) (h : 0 ≤ w.toInt) : wrap w = w := by
  have hc : IntOp.cmpi .slt w 0#32 = 0#1 := by
    apply eq_zero_of_ne_one
    intro hc
    have hlt := IntOp.cmpi_slt.1 hc
    have h0 : (0#32 : BitVec 32).toInt = 0 := by decide
    omega
  unfold wrap
  rw [hc, select_zero]

/-- For a word inside the table, "reads as p" and "clamps to p" say the same. -/
theorem toInt_eq_iff_clampF (w : BitVec 32) (h0 : 0 ≤ w.toInt) (h1 : w.toInt < 16384) (p : Fin 16384) :
    w.toInt = (p.val : Int) ↔ clampF w = p := by
  constructor
  · intro h
    apply Fin.ext
    show min w.toInt.toNat (16384 - 1) = p.val
    omega
  · intro h
    have hv : min w.toInt.toNat (16384 - 1) = p.val := congrArg Fin.val h
    omega

/-! ## Real numbers inside the extended reals -/

/-- The inclusion of the reals commutes with finite sums. -/
theorem coe_sum {ι : Type*} (s : Finset ι) (f : ι → ℝ) : ((∑ a ∈ s, f a : ℝ) : EReal) = ∑ a ∈ s, (f a : EReal) := by
  induction s using Finset.cons_induction with
  | empty => simp
  | cons a s ha ih => rw [Finset.sum_cons, Finset.sum_cons, EReal.coe_add, ih]

/-- The inclusion of the reals commutes with "this term or nothing". -/
theorem coe_ite (p : Prop) [Decidable p] (a : ℝ) : ((if p then a else 0 : ℝ) : EReal) = if p then (a : EReal) else 0 := by
  split_ifs <;> simp

/-- Every connection weight is a real number when both tables are. -/
theorem values_real (enc : (⟨2, ![16384, 768]⟩ : Shape).Idx → EReal) (dec : (⟨2, ![768, 16384]⟩ : Shape).Idx → EReal)
    (i j : IVec ⟨1, ![262144]⟩ 32)
    (hE : ∀ p, ∃ x : ℝ, enc p = (x : EReal)) (hD : ∀ p, ∃ x : ℝ, dec p = (x : EReal)) :
    ∃ v : Fin 262144 → ℝ, ∀ m, values enc dec i j m = (v m : EReal) := by
  choose enc' hE' using hE
  choose dec' hD' using hD
  refine ⟨fun m => ∑ d : Fin 768, enc' (ix2 (clampF (wrap (i (ix1 m)))) d) * dec' (ix2 d (clampF (wrap (j (ix1 m))))), fun m => ?_⟩
  unfold values
  rw [coe_sum]
  refine Finset.sum_congr rfl fun d _ => ?_
  rw [hE', hD', EReal.coe_mul]

/-! ## Sixteen blocks of 1024 columns are the 16384 columns -/

/-- A column is (its block, its place in the block). -/
def blkEquiv : Fin 16 × Fin 1024 ≃ Fin 16384 where
  toFun p := blk p.1 p.2
  invFun jj := (⟨jj.val / 1024, by omega⟩, ⟨jj.val % 1024, by omega⟩)
  left_inv p := by
    rcases p with ⟨k, kk⟩
    refine Prod.ext (Fin.ext ?_) (Fin.ext ?_)
    · show (1024 * k.val + kk.val) / 1024 = k.val
      omega
    · show (1024 * k.val + kk.val) % 1024 = kk.val
      omega
  right_inv jj := by
    apply Fin.ext
    show 1024 * (jj.val / 1024) + jj.val % 1024 = jj.val
    omega

/-- A sum taken block by block is the sum over all columns. -/
theorem sum_blocks {M : Type*} [AddCommMonoid M] (f : Fin 16384 → M) :
    ∑ k : Fin 16, ∑ kk : Fin 1024, f (blk k kk) = ∑ jj : Fin 16384, f jj :=
  (Fintype.sum_prod_type (fun p : Fin 16 × Fin 1024 => f (blk p.1 p.2))).symm.trans (Equiv.sum_comp blkEquiv f)

/-! ## The exchange of the two sums -/

/-- Over the reals: a row times a column of the matrix that collects the weights by (source, target) is the sum over the
    connections into the target of source activation times weight.  Each connection has one source, so after the two sums
    are exchanged the sum over sources keeps one term. -/
theorem real_sum_mul_sum_ite {ι κ : Type*} [Fintype ι] [Fintype κ] [DecidableEq κ]
    (x : κ → ℝ) (v : ι → ℝ) (c : ι → κ) (Q : ι → Prop) [DecidablePred Q] :
    ∑ jj, x jj * (∑ m, if c m = jj ∧ Q m then v m else 0) = ∑ m, if Q m then x (c m) * v m else 0 := by
  simp only [Finset.mul_sum]
  rw [Finset.sum_comm]
  refine Finset.sum_congr rfl fun m _ => ?_
  by_cases hq : Q m
  · simp only [hq, and_true, if_true, mul_ite, mul_zero]
    rw [Finset.sum_ite_eq]
    simp
  · simp [hq]

/-- The same with the real numbers read as extended reals. -/
theorem sum_mul_sum_ite {ι κ : Type*} [Fintype ι] [Fintype κ] [DecidableEq κ]
    (x : κ → ℝ) (v : ι → ℝ) (c : ι → κ) (Q : ι → Prop) [DecidablePred Q] :
    ∑ jj, (x jj : EReal) * (∑ m, if c m = jj ∧ Q m then (v m : EReal) else 0)
      = ∑ m, if Q m then (x (c m) : EReal) * (v m : EReal) else 0 := by
  have hl : ∑ jj, (x jj : EReal) * (∑ m, if c m = jj ∧ Q m then (v m : EReal) else 0)
      = ((∑ jj, x jj * (∑ m, if c m = jj ∧ Q m then v m else 0) : ℝ) : EReal) := by
    rw [coe_sum]
    refine Finset.sum_congr rfl fun jj _ => ?_
    rw [EReal.coe_mul, coe_sum]
    simp only [coe_ite]
  have hr : (∑ m, if Q m then (x (c m) : EReal) * (v m : EReal) else 0)
      = ((∑ m, if Q m then x (c m) * v m else 0 : ℝ) : EReal) := by
    rw [coe_sum]
    refine Finset.sum_congr rfl fun m _ => ?_
    rw [coe_ite, EReal.coe_mul]
  rw [hl, hr, real_sum_mul_sum_ite]

/-! ## The statement -/

/-- For finite tables and upstream indices inside the table, the blocked product of row (b, s) of the activations with
    column q of the dense connection matrix is the specification's entry (b, s, q). -/
theorem blockedDot_eq_G (X : (⟨3, ![2, 512, 16384]⟩ : Shape).Idx → EReal)
    (enc : (⟨2, ![16384, 768]⟩ : Shape).Idx → EReal) (dec : (⟨2, ![768, 16384]⟩ : Shape).Idx → EReal)
    (i j : IVec ⟨1, ![262144]⟩ 32)
    (hX : ∀ p, ∃ x : ℝ, X p = (x : EReal)) (hE : ∀ p, ∃ x : ℝ, enc p = (x : EReal))
    (hD : ∀ p, ∃ x : ℝ, dec p = (x : EReal))
    (hj : ∀ m : Fin 262144, 0 ≤ (j (ix1 m)).toInt ∧ (j (ix1 m)).toInt < 16384)
    (A : (⟨2, ![1024, 16384]⟩ : Shape).Idx → EReal)
    (hA : ∀ (b : Fin 2) (s : Fin 512) (jj : Fin 16384), A (ix2 (Cert.Spec.row b s) jj) = X (ix3 b s jj))
    (b : Fin 2) (s : Fin 512) (q : Fin 16384) :
    Cert.Spec.blockedDot A (Cert.Spec.W enc dec i j) (Cert.Spec.row b s) q = Cert.Spec.G X enc dec i j (ix3 b s q) := by
  choose x' hx' using hX
  obtain ⟨v', hv'⟩ := values_real enc dec i j hE hD
  have hw : ∀ m, wrap (j (ix1 m)) = j (ix1 m) := fun m => wrap_of_nonneg _ (hj m).1
  -- column q of the connection matrix, with the source test read as "the read lands on jj"
  have hW : ∀ jj : Fin 16384, W enc dec i j (ix2 jj q)
      = ∑ m : Fin 262144, if clampF (j (ix1 m)) = jj ∧ (wrap (i (ix1 m))).toInt = (q.val : Int) then (v' m : EReal) else 0 := by
    intro jj
    show (∑ m : Fin 262144, if (wrap (j (ix1 m))).toInt = (jj.val : Int) ∧ (wrap (i (ix1 m))).toInt = (q.val : Int)
      then values enc dec i j m else 0) = _
    refine Finset.sum_congr rfl fun m _ => ?_
    rw [hw m, hv' m]
    exact if_congr (and_congr (toInt_eq_iff_clampF _ (hj m).1 (hj m).2 jj) Iff.rfl) rfl rfl
  -- the specification's entry with real activations and weights
  have hG : G X enc dec i j (ix3 b s q)
      = ∑ m : Fin 262144, if (wrap (i (ix1 m))).toInt = (q.val : Int)
          then (x' (ix3 b s (clampF (j (ix1 m)))) : EReal) * (v' m : EReal) else 0 := by
    show (∑ m : Fin 262144, if (wrap (i (ix1 m))).toInt = (q.val : Int)
      then X (ix3 b s (clampF (wrap (j (ix1 m))))) * values enc dec i j m else 0) = _
    refine Finset.sum_congr rfl fun m _ => ?_
    rw [hw m, hv' m, hx']
  unfold blockedDot
  rw [sum_blocks (fun jj => A (ix2 (row b s) jj) * W enc dec i j (ix2 jj q)), hG]
  have hterm : ∀ jj : Fin 16384, A (ix2 (row b s) jj) * W enc dec i j (ix2 jj q)
      = (x' (ix3 b s jj) : EReal) * ∑ m : Fin 262144,
          if clampF (j (ix1 m)) = jj ∧ (wrap (i (ix1 m))).toInt = (q.val : Int) then (v' m : EReal) else 0 := by
    intro jj
    rw [hA, hx', hW]
  rw [Finset.sum_congr rfl fun jj _ => hterm jj]
  exact sum_mul_sum_ite (fun jj => x' (ix3 b s jj)) v' (fun m => clampF (j (ix1 m)))
    (fun m => (wrap (i (ix1 m))).toInt = (q.val : Int))

end Cert.KMath

end
-- ==== Proof.PreFacts.lean ====
/-
  What the precondition says of the inputs: every entry of the three float tables is a real number, and every upstream
  index lies in [0, 16384).
-/
import proofs.«422568_j49546742726742_1_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- The single-precision word 0x7F800000 denotes +∞. -/
theorem inf_word : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The elementwise test "|x| < +∞" coming out true says x is a real number. -/
theorem real_of_cmp (x : EReal) (h : Ideal.cmp .olt (max x (-x)) (Ideal.ofBits .f32 0x7F800000#32) = 1#1) :
    ∃ r : ℝ, x = (r : EReal) := by
  rw [inf_word] at h
  refine real_of_abs_lt_top x ?_
  simpa [Ideal.cmp, StableHlo.Predicate.ofBool_eq_one_iff] using h

/-- The precondition read off: finite tables, upstream indices in range. -/
theorem pre_facts (X : FVec Ideal S2x512x16384 .f32) (enc : FVec Ideal S16384x768 .f32) (dec : FVec Ideal S768x16384 .f32)
    (i j : IVec S262144 32)
    (h : Cert.Pre_finite_inputs.fn (F := Ideal) X enc dec i j = fun _ => 1#1) :
    (∀ p, ∃ x : ℝ, X p = (x : EReal)) ∧ (∀ p, ∃ x : ℝ, enc p = (x : EReal)) ∧ (∀ p, ∃ x : ℝ, dec p = (x : EReal))
      ∧ ∀ m : Fin 262144, 0 ≤ (j (ix1 m)).toInt ∧ (j (ix1 m)).toInt < 16384 := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun p => ?_, fun p => ?_, fun p => ?_, fun m => ?_⟩
  · exact real_of_cmp _ (Host.reduce_andi_all _ _ _ _ _ h1 p)
  · exact real_of_cmp _ (Host.reduce_andi_all _ _ _ _ _ h2 p)
  · exact real_of_cmp _ (Host.reduce_andi_all _ _ _ _ _ h3 p)
  · have hm := Host.reduce_andi_all _ _ _ _ _ h4 (ix1 m)
    obtain ⟨hge, hlt⟩ := IntOp.andi_eq_one.1 hm
    have hge' : (0#32 : BitVec 32).toInt ≤ (j (ix1 m)).toInt := IntOp.cmpi_sge.1 hge
    have hlt' : (j (ix1 m)).toInt < (16384#32 : BitVec 32).toInt := IntOp.cmpi_slt.1 hlt
    have z : (0#32 : BitVec 32).toInt = 0 := by decide
    have s : (16384#32 : BitVec 32).toInt = 16384 := by decide
    rw [z] at hge'
    rw [s] at hlt'
    exact ⟨hge', hlt'⟩

end Cert.PreFacts

end
-- ==== Proof.KValue.lean ====
/-
  The kernel program's run, read: its result is the specification.

  The launch leaves the blocked product of the activations (as a 1024-row matrix) with the dense connection matrix;
  the last host operation lays it out as [2, 512, 16384].  Under the precondition — finite tables, upstream indices
  inside the table — that product is, entry by entry, the sum over the connections into a downstream feature of
  activation times weight.
-/
import proofs.«422568_j49546742726742_1_alg».proof.Proof.KRegion
import proofs.«422568_j49546742726742_1_alg».proof.Proof.KHost
import proofs.«422568_j49546742726742_1_alg».proof.Proof.KMath
import proofs.«422568_j49546742726742_1_alg».proof.Proof.PreFacts

noncomputable section

open Idealize.ShloMosaic Idealize.ShloMosaic.TcCoe Idealize.SL.Sem Idealize.ShloMosaic.ValueIdx

namespace Cert.KValue

open Cert.KernelIdeal Cert.KernelIdeal.Gen

variable (m : (ℓ : Loc nD τ sig) → Buf (Elt Ideal) ℓ) (ρ : Dev nD → PrngReg)

/-- The specification at the kernel program's argument arrays. -/
abbrev spec (c : Dev nD) : S2x512x16384.Idx → EReal :=
  Cert.Spec.G (m ((c : Thread nD τ).loc main_arg0)) (m ((c : Thread nD τ).loc main_arg1))
    (m ((c : Thread nD τ).loc main_arg2)) (m ((c : Thread nD τ).loc main_arg3)) (m ((c : Thread nD τ).loc main_arg4))

/-- Under the precondition the program's result buffer ends at the specification. -/
theorem result_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
        = fun _ => 1#1) :
    Pipeline.afterTail₀ cfgs (dats m) 0 (V0 m) [hostOps1] c main_v36 = spec m c := by
  obtain ⟨hX, hE, hD, hj⟩ := Cert.PreFacts.pre_facts _ _ _ _ _ hpre
  rw [Cert.KRegion.v36_eq m c]
  funext p
  obtain ⟨b, s, q, rfl⟩ : ∃ (b : Fin 2) (s : Fin 512) (q : Fin 16384), p = ix3 b s q := ⟨p 0, p 1, p 2, eq_ix3 p⟩
  show Cert.Spec.blockedDot (Cert.KRegion.Aarr m c) (Cert.KRegion.Warr m c) (Cert.Spec.row b s) q = _
  rw [show Cert.KRegion.Warr m c = _ from Cert.KHost.W_eq m c]
  exact Cert.KMath.blockedDot_eq_G _ _ _ _ _ hX hE hD hj (Cert.KRegion.Aarr m c)
    (fun b s jj => Cert.KHost.A_apply m c b s jj) b s q

/-- Every weakly fair execution of the kernel program from a memory satisfying the precondition ends with the result
    buffer at the specification and the five argument arrays unchanged. -/
theorem run (hpre : ∀ c : Dev nD,
      Cert.Pre_finite_inputs.fn (F := Ideal) (m ((c : Thread nD τ).loc main_arg0)) (m ((c : Thread nD τ).loc main_arg1))
        (m ((c : Thread nD τ).loc main_arg2)) (m ((c : Thread nD τ).loc main_arg3)) (m ((c : Thread nD τ).loc main_arg4))
          = fun _ => 1#1) :
    θ_run defs (onTc (τ := τ) (main (F := Ideal))) ⟨m, fun _ => 0, ρ⟩ (fun r => ∀ c : Dev nD,
      r.2.mem ((c.tc : Thread nD τ).loc main_v36) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v36 (Pipeline.mem_restRefs_of main_v36 (by decide) (by decide))).trans (result_eq m c (hpre c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KValue

end
-- ==== Proof.lean ====
/-
  The certificate: the Pallas program (a dense connection matrix built by a scatter-add on the host, then a tiled
  matrix product on the chip) and the reference (a gather, a multiply and a scatter-add) compute one function.

  For connection m from upstream feature j(m) to downstream feature i(m), with weight
  values(m) = ⟨encoder row i(m), decoder column j(m)⟩, the reference's result at (b, s, q) is the sum over the
  connections into q of X(b, s, j(m)) · values(m).  The kernel program forms W(p, q) = Σ_{m : j(m) = p, i(m) = q} values(m)
  and multiplies the activations by it, 1024 contraction columns at a time.  The two agree by distributing X(b, s, p) over
  W(p, q) and collecting, for each connection, the one p it comes from — an identity of finite real sums, which is why the
  tables must be finite; and it needs j(m) to be a column of the table, since the reference's read clamps an index outside
  the table while the kernel program's scatter drops it.  An index i(m) outside the table is dropped by both.

  The three frames: the two kernel programs' are generated; the reference's is its generated run with the result
  dropped.  The idealization rewrote nothing.
-/
import proofs.«422568_j49546742726742_1_alg».proof.Defs
import proofs.«422568_j49546742726742_1_alg».proof.Proof.Gen.Kernel
import proofs.«422568_j49546742726742_1_alg».proof.Proof.Gen.Kernel.Skeleton
import proofs.«422568_j49546742726742_1_alg».proof.Proof.Gen.Kernel.Launch
import proofs.«422568_j49546742726742_1_alg».proof.Proof.Gen.Kernel.Points
import proofs.«422568_j49546742726742_1_alg».proof.Proof.Gen.Kernel.Frame
import proofs.«422568_j49546742726742_1_alg».proof.Proof.Gen.KernelIdeal
import proofs.«422568_j49546742726742_1_alg».proof.Proof.Gen.KernelIdeal.Skeleton
import proofs.«422568_j49546742726742_1_alg».proof.Proof.Gen.KernelIdeal.Launch
import proofs.«422568_j49546742726742_1_alg».proof.Proof.Gen.KernelIdeal.Points
import proofs.«422568_j49546742726742_1_alg».proof.Proof.Gen.KernelIdeal.Frame
import proofs.«422568_j49546742726742_1_alg».proof.Proof.Gen.ReferenceIdeal
import proofs.«422568_j49546742726742_1_alg».proof.Proof.Gen.Pre_finite_inputs
import proofs.«422568_j49546742726742_1_alg».proof.Proof.Gen.ReferenceIdeal.Run
import proofs.«422568_j49546742726742_1_alg».proof.Proof.Gen.ReferenceIdeal.Read
import proofs.«422568_j49546742726742_1_alg».proof.Proof.KValue
import proofs.«422568_j49546742726742_1_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification of the arguments, which agree. -/
theorem algebraic : Cert.algebraic_KernelIdeal_ReferenceIdeal := by
  intro m ρ m' ρ' hpre hagree
  refine ⟨fun c => Cert.KValue.spec m c, Cert.KValue.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.RefValue.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
